-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S991232x100 : Shape := ⟨2, ![991232, 100]⟩
abbrev S901120 : Shape := ⟨1, ![901120]⟩
abbrev S81920 : Shape := ⟨1, ![81920]⟩
abbrev S100x256 : Shape := ⟨2, ![100, 256]⟩
abbrev S256 : Shape := ⟨1, ![256]⟩
abbrev S256x47 : Shape := ⟨2, ![256, 47]⟩
abbrev S47 : Shape := ⟨1, ![47]⟩
abbrev S_ : Shape := ⟨0, ![]⟩

class Facts : Prop where
  bcast_S_S991232x100 : S_.BroadcastsInDim S991232x100 (![] : Fin 0 → Fin S991232x100.rank)
  reducesTo_S991232x100_S_d0_1 : S991232x100.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S256 : S_.BroadcastsInDim S256 (![] : Fin 0 → Fin S256.rank)
  reducesTo_S256_S_d0 : S256.ReducesTo [0] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg8 : FVec F S256x47 .f32) (main_arg9 : FVec F S47 .f32) (main_arg10 : FVec F S256x47 .f32) (main_v13 : IVec S_ 1) (main_v16 : IVec S100x256 1) : IVec S_ 1 :=
  let main_c_5 : IVec S_ 1 := constantI S_ 1 1#1
  let main_v17 : IVec S_ 1 := (fun x v => Host.reduce IntOp.andi x v reducesTo_S100x256_S_d0_1 h_S_) main_v16 main_c_5
  let main_v18 : IVec S_ 1 := andi main_v13 main_v17
  let main_v19 : FVec F S256x47 .f32 := Host.absf main_arg8
  let main_cst_6 : FVec F S_ .f32 := constant S_ .f32 0x7F800000#32
  let main_v20 : FVec F S256x47 .f32 := broadcastInDim S256x47 ![] bcast_S_S256x47 main_cst_6
  let main_v21 : IVec S256x47 1 := cmpf .olt main_v19 main_v20
  let main_c_7 : IVec S_ 1 := constantI S_ 1 1#1
  let main_v22 : IVec S_ 1 := (fun x v => Host.reduce IntOp.andi x v reducesTo_S256x47_S_d0_1 h_S_) main_v21 main_c_7
  let main_v23 : IVec S_ 1 := andi main_v18 main_v22
  let main_v24 : FVec F S47 .f32 := Host.absf main_arg9
  let main_cst_8 : FVec F S_ .f32 := constant S_ .f32 0x7F800000#32
  let main_v25 : FVec F S47 .f32 := broadcastInDim S47 ![] bcast_S_S47 main_cst_8
  let main_v26 : IVec S47 1 := cmpf .olt main_v24 main_v25
  let main_c_9 : IVec S_ 1 := constantI S_ 1 1#1
  let main_v27 : IVec S_ 1 := (fun x v => Host.reduce IntOp.andi x v reducesTo_S47_S_d0 h_S_) main_v26 main_c_9
  let main_v28 : IVec S_ 1 := andi main_v23 main_v27
  let main_v29 : FVec F S256x47 .f32 := Host.absf main_arg10
  let main_cst_10 : FVec F S_ .f32 := constant S_ .f32 0x7F800000#32
  let main_v30 : FVec F S256x47 .f32 := broadcastInDim S256x47 ![] bcast_S_S256x47 main_cst_10
  let main_v31 : IVec S256x47 1 := cmpf .olt main_v29 main_v30
  let main_c_11 : IVec S_ 1 := constantI S_ 1 1#1
  let main_v32 : IVec S_ 1 := (fun x v => Host.reduce IntOp.andi x v reducesTo_S256x47_S_d0_1 h_S_) main_v31 main_c_11
  let main_v33 : IVec S_ 1 := andi main_v28 main_v32
  main_v33

def fn {F : FTy → Type} [FloatOps F] (main_arg0 : FVec F S991232x100 .f32) (main_arg1 : IVec S901120 32) (main_arg2 : IVec S901120 32) (main_arg3 : IVec S81920 32) (main_arg4 : IVec S81920 32) (main_arg5 : FVec F S100x256 .f32) (main_arg6 : FVec F S256 .f32) (main_arg7 : FVec F S100x256 .f32) (main_arg8 : FVec F S256x47 .f32) (main_arg9 : FVec F S47 .f32) (main_arg10 : FVec F S256x47 .f32) : IVec S_ 1 :=
  let main_v0 : FVec F S991232x100 .f32 := Host.absf main_arg0
  let main_cst : FVec F S_ .f32 := constant S_ .f32 0x7F800000#32
  let main_v1 : FVec F S991232x100 .f32 := broadcastInDim S991232x100 ![] bcast_S_S991232x100 main_cst
  let main_v2 : IVec S991232x100 1 := cmpf .olt main_v0 main_v1
  let main_c : IVec S_ 1 := constantI S_ 1 1#1
  let main_v3 : IVec S_ 1 := (fun x v => Host.reduce IntOp.andi x v reducesTo_S991232x100_S_d0_1 h_S_) main_v2 main_c
  let main_v4 : FVec F S100x256 .f32 := Host.absf main_arg5
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S100x256 .f32 := Host.absf main_arg7
  let main_cst_4 : FVec F S_ .f32 := constant S_ .f32 0x7F800000#32
  let main_v15 : FVec F S100x256 .f32 := broadcastInDim S100x256 ![] bcast_S_S100x256 main_cst_4
  let main_v16 : IVec S100x256 1 := cmpf .olt main_v14 main_v15
  fn_part1 (F := F) main_arg8 main_arg9 main_arg10 main_v13 main_v16
-- ==== Kernel.lean ====
abbrev S991232x100 : Shape := ⟨2, ![991232, 100]⟩
abbrev S901120 : Shape := ⟨1, ![901120]⟩
abbrev S81920 : Shape := ⟨1, ![81920]⟩
abbrev S100x256 : Shape := ⟨2, ![100, 256]⟩
abbrev S256 : Shape := ⟨1, ![256]⟩
abbrev S256x47 : Shape := ⟨2, ![256, 47]⟩
abbrev S47 : Shape := ⟨1, ![47]⟩
abbrev S_ : Shape := ⟨0, ![]⟩
abbrev S901120x1 : Shape := ⟨2, ![901120, 1]⟩
abbrev S901120x100 : Shape := ⟨2, ![901120, 100]⟩
abbrev S90112x100 : Shape := ⟨2, ![90112, 100]⟩
abbrev S90112 : Shape := ⟨1, ![90112]⟩
abbrev S90112x1 : Shape := ⟨2, ![90112, 1]⟩
abbrev S90112x256 : Shape := ⟨2, ![90112, 256]⟩
abbrev S1024x100 : Shape := ⟨2, ![1024, 100]⟩
abbrev S1024x256 : Shape := ⟨2, ![1024, 256]⟩
abbrev S1x256 : Shape := ⟨2, ![1, 256]⟩
abbrev S81920x1 : Shape := ⟨2, ![81920, 1]⟩
abbrev S81920x256 : Shape := ⟨2, ![81920, 256]⟩
abbrev S8192x256 : Shape := ⟨2, ![8192, 256]⟩
abbrev S8192 : Shape := ⟨1, ![8192]⟩
abbrev S8192x1 : Shape := ⟨2, ![8192, 1]⟩
abbrev S8192x47 : Shape := ⟨2, ![8192, 47]⟩
abbrev S1024x47 : Shape := ⟨2, ![1024, 47]⟩
abbrev S1x47 : Shape := ⟨2, ![1, 47]⟩
abbrev S1024 : Shape := ⟨1, ![1024]⟩
abbrev S1024x1 : Shape := ⟨2, ![1024, 1]⟩

abbrev nBuf : Space → Nat
  | .hbm => 65
  | .vmem => 18
  | .smem => 0
  | _ => 0

abbrev bufTy : (tb : Table) → Fin (tcTables nBuf tb) → BufTy
  | .hbm, ⟨0, _⟩ => ⟨S991232x100, .f32⟩
  | .hbm, ⟨1, _⟩ => ⟨S901120, .i32⟩
  | .hbm, ⟨2, _⟩ => ⟨S901120, .i32⟩
  | .hbm, ⟨3, _⟩ => ⟨S81920, .i32⟩
  | .hbm, ⟨4, _⟩ => ⟨S81920, .i32⟩
  | .hbm, ⟨5, _⟩ => ⟨S100x256, .f32⟩
  | .hbm, ⟨6, _⟩ => ⟨S256, .f32⟩
  | .hbm, ⟨7, _⟩ => ⟨S100x256, .f32⟩
  | .hbm, ⟨8, _⟩ => ⟨S256x47, .f32⟩
  | .hbm, ⟨9, _⟩ => ⟨S47, .f32⟩
  | .hbm, ⟨10, _⟩ => ⟨S256x47, .f32⟩
  | .hbm, ⟨11, _⟩ => ⟨S_, .i32⟩
  | .hbm, ⟨12, _⟩ => ⟨S901120, .i32⟩
  | .hbm, ⟨13, _⟩ => ⟨S901120, .i1⟩
  | .hbm, ⟨14, _⟩ => ⟨S_, .i32⟩
  | .hbm, ⟨15, _⟩ => ⟨S901120, .i32⟩
  | .hbm, ⟨16, _⟩ => ⟨S901120, .i32⟩
  | .hbm, ⟨17, _⟩ => ⟨S901120, .i32⟩
  | .hbm, ⟨18, _⟩ => ⟨S901120x1, .i32⟩
  | .hbm, ⟨19, _⟩ => ⟨S901120x100, .f32⟩
  | .hbm, ⟨20, _⟩ => ⟨S_, .f32⟩
  | .hbm, ⟨21, _⟩ => ⟨S90112x100, .f32⟩
  | .hbm, ⟨22, _⟩ => ⟨S901120x1, .i32⟩
  | .hbm, ⟨23, _⟩ => ⟨S90112x100, .f32⟩
  | .hbm, ⟨24, _⟩ => ⟨S_, .f32⟩
  | .hbm, ⟨25, _⟩ => ⟨S901120, .f32⟩
  | .hbm, ⟨26, _⟩ => ⟨S_, .f32⟩
  | .hbm, ⟨27, _⟩ => ⟨S90112, .f32⟩
  | .hbm, ⟨28, _⟩ => ⟨S901120x1, .i32⟩
  | .hbm, ⟨29, _⟩ => ⟨S90112, .f32⟩
  | .hbm, ⟨30, _⟩ => ⟨S_, .f32⟩
  | .hbm, ⟨31, _⟩ => ⟨S90112, .f32⟩
  | .hbm, ⟨32, _⟩ => ⟨S90112, .f32⟩
  | .hbm, ⟨33, _⟩ => ⟨S90112x1, .f32⟩
  | .hbm, ⟨34, _⟩ => ⟨S90112x100, .f32⟩
  | .hbm, ⟨35, _⟩ => ⟨S90112x100, .f32⟩
  | .hbm, ⟨36, _⟩ => ⟨S90112x100, .f32⟩
  | .hbm, ⟨37, _⟩ => ⟨S90112x256, .f32⟩
  | .hbm, ⟨38, _⟩ => ⟨S_, .i32⟩
  | .hbm, ⟨39, _⟩ => ⟨S81920, .i32⟩
  | .hbm, ⟨40, _⟩ => ⟨S81920, .i1⟩
  | .hbm, ⟨41, _⟩ => ⟨S_, .i32⟩
  | .hbm, ⟨42, _⟩ => ⟨S81920, .i32⟩
  | .hbm, ⟨43, _⟩ => ⟨S81920, .i32⟩
  | .hbm, ⟨44, _⟩ => ⟨S81920, .i32⟩
  | .hbm, ⟨45, _⟩ => ⟨S81920x1, .i32⟩
  | .hbm, ⟨46, _⟩ => ⟨S81920x256, .f32⟩
  | .hbm, ⟨47, _⟩ => ⟨S_, .f32⟩
  | .hbm, ⟨48, _⟩ => ⟨S8192x256, .f32⟩
  | .hbm, ⟨49, _⟩ => ⟨S81920x1, .i32⟩
  | .hbm, ⟨50, _⟩ => ⟨S8192x256, .f32⟩
  | .hbm, ⟨51, _⟩ => ⟨S_, .f32⟩
  | .hbm, ⟨52, _⟩ => ⟨S81920, .f32⟩
  | .hbm, ⟨53, _⟩ => ⟨S_, .f32⟩
  | .hbm, ⟨54, _⟩ => ⟨S8192, .f32⟩
  | .hbm, ⟨55, _⟩ => ⟨S81920x1, .i32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x1, .f32⟩
  | .hbm, ⟨61, _⟩ => ⟨S8192x256, .f32⟩
  | .hbm, ⟨62, _⟩ => ⟨S8192x256, .f32⟩
  | .hbm, ⟨63, _⟩ => ⟨S8192x256, .f32⟩
  | .hbm, ⟨64, _⟩ => ⟨S8192x47, .f32⟩
  | .local _ .vmem, ⟨0, _⟩ => ⟨S1024x100, .f32⟩
  | .local _ .vmem, ⟨1, _⟩ => ⟨S1024x100, .f32⟩
  | .local _ .vmem, ⟨2, _⟩ => ⟨S1024x100, .f32⟩
  | .local _ .vmem, ⟨3, _⟩ => ⟨S1024x100, .f32⟩
  | .local _ .vmem, ⟨4, _⟩ => ⟨S100x256, .f32⟩
  | .local _ .vmem, ⟨5, _⟩ => ⟨S256, .f32⟩
  | .local _ .vmem, ⟨6, _⟩ => ⟨S100x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S256x47, .f32⟩
  | .local _ .vmem, ⟨14, _⟩ => ⟨S47, .f32⟩
  | .local _ .vmem, ⟨15, _⟩ => ⟨S256x47, .f32⟩
  | .local _ .vmem, ⟨16, _⟩ => ⟨S1024x47, .f32⟩
  | .local _ .vmem, ⟨17, _⟩ => ⟨S1024x47, .f32⟩
  | _, _ => ⟨S991232x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x47 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S47 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x47 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x47 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S901120 : S_.BroadcastsInDim S901120 (![] : Fin 0 → Fin S901120.rank)
  bcast_S901120_S901120x1_0 : S901120.BroadcastsInDim S901120x1 (![0] : Fin 1 → Fin S901120x1.rank)
  bcast_S_S90112x100 : S_.BroadcastsInDim S90112x100 (![] : Fin 0 → Fin S90112x100.rank)
  bcast_S_S90112 : S_.BroadcastsInDim S90112 (![] : Fin 0 → Fin S90112.rank)
  bcast_S90112_S90112x1_0 : S90112.BroadcastsInDim S90112x1 (![0] : Fin 1 → Fin S90112x1.rank)
  bcast_S90112x1_S90112x100_0_1 : S90112x1.BroadcastsInDim S90112x100 (![0, 1] : Fin 2 → Fin S90112x100.rank)
  slices_S991232x100_S90112x100_0_0 : S991232x100.Slices ![0, 0] S90112x100
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  bcast_S_S81920 : S_.BroadcastsInDim S81920 (![] : Fin 0 → Fin S81920.rank)
  bcast_S81920_S81920x1_0 : S81920.BroadcastsInDim S81920x1 (![0] : Fin 1 → Fin S81920x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  slices_S90112x256_S8192x256_0_0 : S90112x256.Slices ![0, 0] S8192x256
  shapeCasts_S1024x256_S1024x256 : S1024x256.ShapeCasts S1024x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S1024x47 : S1x47.Broadcasts S1024x47
  reduces_S1024x47_S1024 : S1024x47.Reduces [1] S1024
  shapeCasts_S1024_S1024x1 : S1024.ShapeCasts S1024x1
  broadcasts_S1024x1_S1024x47 : S1024x1.Broadcasts S1024x47
  inb_S1024x47_S1024x47_0_0 : ∀ a, (![0, 0] : Fin 2 → Nat) a + S1024x47.size a ≤ S1024x47.size a
  h_S1024x47 : 0 < S1024x47.numel
  gather_S991232x100_S901120x1_S901120x100_1_0_n_n_0_1_1100_wf : GatherDims.WF S991232x100 S901120x1 S901120x100 [1] [0] [] [0] [] 1 ![1, 100]
  scatter_S90112x100_S901120x1_S901120x100_1_0_0_1_wf : ScatterDims.WF S90112x100 S901120x1 S901120x100 [1] [0] [0] 1
  scatter_S90112_S901120x1_S901120_n_0_0_1_wf : ScatterDims.WF S90112 S901120x1 S901120 [] [0] [0] 1
  dot_S1024x100_S100x256_S1024x256_1_0_0_1_n_n_wf : DotDims.WF S1024x100 S100x256 S1024x256 [1] [0] [0] [1] [] []
  gather_S90112x256_S81920x1_S81920x256_1_0_n_n_0_1_1256_wf : GatherDims.WF S90112x256 S81920x1 S81920x256 [1] [0] [] [0] [] 1 ![1, 256]
  scatter_S8192x256_S81920x1_S81920x256_1_0_0_1_wf : ScatterDims.WF S8192x256 S81920x1 S81920x256 [1] [0] [0] 1
  scatter_S8192_S81920x1_S81920_n_0_0_1_wf : ScatterDims.WF S8192 S81920x1 S81920 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x100.size a ≤ S90112x100.size a
  hwx0_0 : ∀ i : grid0.Coords, EltTy.bits .f32 = 32 ∨ (Rect.block (s := S90112x100) S1024x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x100.size a ≤ S90112x100.size a
  hwx0_1 : ∀ i : grid0.Coords, EltTy.bits .f32 = 32 ∨ (Rect.block (s := S90112x100) S1024x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .f32 = 32 ∨ (Rect.block (s := S100x256) S100x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x256.size a ≤ S100x256.size a
  hwx0_4 : ∀ i : grid0.Coords, EltTy.bits .f32 = 32 ∨ (Rect.block (s := S100x256) S100x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S90112x256.size a
  hwx0_5 : ∀ i : grid0.Coords, EltTy.bits .f32 = 32 ∨ (Rect.block (s := S90112x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x47.size a ≤ S256x47.size a
  hwx1_2 : ∀ i : grid1.Coords, EltTy.bits .f32 = 32 ∨ (Rect.block (s := S256x47) S256x47.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S47.size a ≤ S47.size a
  hwx1_3 : ∀ i : grid1.Coords, EltTy.bits .f32 = 32 ∨ (Rect.block (s := S47) S47.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x47.size a ≤ S256x47.size a
  hwx1_4 : ∀ i : grid1.Coords, EltTy.bits .f32 = 32 ∨ (Rect.block (s := S256x47) S256x47.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x47.size a ≤ S8192x47.size a
  hwx1_5 : ∀ i : grid1.Coords, EltTy.bits .f32 = 32 ∨ (Rect.block (s := S8192x47) S1024x47.size (cc1_transform_5 i) (hinb1_5 i)).WholeWords (EltTy.packing .f32)

variable [Facts₀]

def gather_S991232x100_S901120x1_S901120x100_1_0_n_n_0_1_1100 : GatherDims S991232x100 S901120x1 S901120x100 where
  offsetDims := [1]
  collapsedSliceDims := [0]
  operandBatchingDims := []
  startIndicesBatchingDims := []
  startIndexMap := [0]
  indexVectorDim := 1
  sliceSizes := ![1, 100]
  wf := gather_S991232x100_S901120x1_S901120x100_1_0_n_n_0_1_1100_wf
def scatter_S90112x100_S901120x1_S901120x100_1_0_0_1 : ScatterDims S90112x100 S901120x1 S901120x100 where
  updateWindowDims := [1]
  insertedWindowDims := [0]
  scatterDimsToOperandDims := [0]
  indexVectorDim := 1
  wf := scatter_S90112x100_S901120x1_S901120x100_1_0_0_1_wf
def scatter_S90112_S901120x1_S901120_n_0_0_1 : ScatterDims S90112 S901120x1 S901120 where
  updateWindowDims := []
  insertedWindowDims := [0]
  scatterDimsToOperandDims := [0]
  indexVectorDim := 1
  wf := scatter_S90112_S901120x1_S901120_n_0_0_1_wf
def dot_S1024x100_S100x256_S1024x256_1_0_0_1_n_n : DotDims S1024x100 S100x256 S1024x256 where
  lhsContracting := [1]
  rhsContracting := [0]
  lhsNonContracting := [0]
  rhsNonContracting := [1]
  lhsBatch := []
  rhsBatch := []
  wf := dot_S1024x100_S100x256_S1024x256_1_0_0_1_n_n_wf
def gather_S90112x256_S81920x1_S81920x256_1_0_n_n_0_1_1256 : GatherDims S90112x256 S81920x1 S81920x256 where
  offsetDims := [1]
  collapsedSliceDims := [0]
  operandBatchingDims := []
  startIndicesBatchingDims := []
  startIndexMap := [0]
  indexVectorDim := 1
  sliceSizes := ![1, 256]
  wf := gather_S90112x256_S81920x1_S81920x256_1_0_n_n_0_1_1256_wf
def scatter_S8192x256_S81920x1_S81920x256_1_0_0_1 : ScatterDims S8192x256 S81920x1 S81920x256 where
  updateWindowDims := [1]
  insertedWindowDims := [0]
  scatterDimsToOperandDims := [0]
  indexVectorDim := 1
  wf := scatter_S8192x256_S81920x1_S81920x256_1_0_0_1_wf
def scatter_S8192_S81920x1_S81920_n_0_0_1 : ScatterDims S8192 S81920x1 S81920 where
  updateWindowDims := []
  insertedWindowDims := [0]
  scatterDimsToOperandDims := [0]
  indexVectorDim := 1
  wf := scatter_S8192_S81920x1_S81920_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v18) S1024x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S100x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x47.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S47.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x47.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1024x47.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S991232x100 : Shape := ⟨2, ![991232, 100]⟩
abbrev S901120 : Shape := ⟨1, ![901120]⟩
abbrev S81920 : Shape := ⟨1, ![81920]⟩
abbrev S100x256 : Shape := ⟨2, ![100, 256]⟩
abbrev S256 : Shape := ⟨1, ![256]⟩
abbrev S256x47 : Shape := ⟨2, ![256, 47]⟩
abbrev S47 : Shape := ⟨1, ![47]⟩
abbrev S90112x100 : Shape := ⟨2, ![90112, 100]⟩
abbrev S_ : Shape := ⟨0, ![]⟩
abbrev S901120x1 : Shape := ⟨2, ![901120, 1]⟩
abbrev S901120x100 : Shape := ⟨2, ![901120, 100]⟩
abbrev S90112 : Shape := ⟨1, ![90112]⟩
abbrev S90112x1 : Shape := ⟨2, ![90112, 1]⟩
abbrev S90112x256 : Shape := ⟨2, ![90112, 256]⟩
abbrev S1x256 : Shape := ⟨2, ![1, 256]⟩
abbrev S8192x256 : Shape := ⟨2, ![8192, 256]⟩
abbrev S81920x1 : Shape := ⟨2, ![81920, 1]⟩
abbrev S81920x256 : Shape := ⟨2, ![81920, 256]⟩
abbrev S8192 : Shape := ⟨1, ![8192]⟩
abbrev S8192x1 : Shape := ⟨2, ![8192, 1]⟩
abbrev S8192x47 : Shape := ⟨2, ![8192, 47]⟩
abbrev S1x47 : Shape := ⟨2, ![1, 47]⟩

abbrev nBuf : Space → Nat
  | .hbm => 93
  | .vmem => 0
  | .smem => 0
  | _ => 0

abbrev bufTy : (tb : Table) → Fin (tcTables nBuf tb) → BufTy
  | .hbm, ⟨0, _⟩ => ⟨S991232x100, .f32⟩
  | .hbm, ⟨1, _⟩ => ⟨S901120, .i32⟩
  | .hbm, ⟨2, _⟩ => ⟨S901120, .i32⟩
  | .hbm, ⟨3, _⟩ => ⟨S81920, .i32⟩
  | .hbm, ⟨4, _⟩ => ⟨S81920, .i32⟩
  | .hbm, ⟨5, _⟩ => ⟨S100x256, .f32⟩
  | .hbm, ⟨6, _⟩ => ⟨S256, .f32⟩
  | .hbm, ⟨7, _⟩ => ⟨S100x256, .f32⟩
  | .hbm, ⟨8, _⟩ => ⟨S256x47, .f32⟩
  | .hbm, ⟨9, _⟩ => ⟨S47, .f32⟩
  | .hbm, ⟨10, _⟩ => ⟨S256x47, .f32⟩
  | .hbm, ⟨11, _⟩ => ⟨S90112x100, .f32⟩
  | .hbm, ⟨12, _⟩ => ⟨S_, .i32⟩
  | .hbm, ⟨13, _⟩ => ⟨S901120, .i32⟩
  | .hbm, ⟨14, _⟩ => ⟨S901120, .i1⟩
  | .hbm, ⟨15, _⟩ => ⟨S_, .i32⟩
  | .hbm, ⟨16, _⟩ => ⟨S901120, .i32⟩
  | .hbm, ⟨17, _⟩ => ⟨S901120, .i32⟩
  | .hbm, ⟨18, _⟩ => ⟨S901120, .i32⟩
  | .hbm, ⟨19, _⟩ => ⟨S901120x1, .i32⟩
  | .hbm, ⟨20, _⟩ => ⟨S901120x100, .f32⟩
  | .hbm, ⟨21, _⟩ => ⟨S_, .f32⟩
  | .hbm, ⟨22, _⟩ => ⟨S90112x100, .f32⟩
  | .hbm, ⟨23, _⟩ => ⟨S901120x1, .i32⟩
  | .hbm, ⟨24, _⟩ => ⟨S90112x100, .f32⟩
  | .hbm, ⟨25, _⟩ => ⟨S_, .f32⟩
  | .hbm, ⟨26, _⟩ => ⟨S901120, .f32⟩
  | .hbm, ⟨27, _⟩ => ⟨S_, .f32⟩
  | .hbm, ⟨28, _⟩ => ⟨S90112, .f32⟩
  | .hbm, ⟨29, _⟩ => ⟨S901120x1, .i32⟩
  | .hbm, ⟨30, _⟩ => ⟨S90112, .f32⟩
  | .hbm, ⟨31, _⟩ => ⟨S_, .f32⟩
  | .hbm, ⟨32, _⟩ => ⟨S90112, .f32⟩
  | .hbm, ⟨33, _⟩ => ⟨S90112, .f32⟩
  | .hbm, ⟨34, _⟩ => ⟨S90112x1, .f32⟩
  | .hbm, ⟨35, _⟩ => ⟨S90112x100, .f32⟩
  | .hbm, ⟨36, _⟩ => ⟨S90112x100, .f32⟩
  | .hbm, ⟨37, _⟩ => ⟨S90112x256, .f32⟩
  | .hbm, ⟨38, _⟩ => ⟨S1x256, .f32⟩
  | .hbm, ⟨39, _⟩ => ⟨S90112x256, .f32⟩
  | .hbm, ⟨40, _⟩ => ⟨S90112x256, .f32⟩
  | .hbm, ⟨41, _⟩ => ⟨S90112x256, .f32⟩
  | .hbm, ⟨42, _⟩ => ⟨S90112x256, .f32⟩
  | .hbm, ⟨43, _⟩ => ⟨S_, .f32⟩
  | .hbm, ⟨44, _⟩ => ⟨S90112x256, .f32⟩
  | .hbm, ⟨45, _⟩ => ⟨S90112x256, .f32⟩
  | .hbm, ⟨46, _⟩ => ⟨S8192x256, .f32⟩
  | .hbm, ⟨47, _⟩ => ⟨S_, .i32⟩
  | .hbm, ⟨48, _⟩ => ⟨S81920, .i32⟩
  | .hbm, ⟨49, _⟩ => ⟨S81920, .i1⟩
  | .hbm, ⟨50, _⟩ => ⟨S_, .i32⟩
  | .hbm, ⟨51, _⟩ => ⟨S81920, .i32⟩
  | .hbm, ⟨52, _⟩ => ⟨S81920, .i32⟩
  | .hbm, ⟨53, _⟩ => ⟨S81920, .i32⟩
  | .hbm, ⟨54, _⟩ => ⟨S81920x1, .i32⟩
  | .hbm, ⟨55, _⟩ => ⟨S81920x256, .f32⟩
  | .hbm, ⟨56, _⟩ => ⟨S_, .f32⟩
  | .hbm, ⟨57, _⟩ => ⟨S8192x256, .f32⟩
  | .hbm, ⟨58, _⟩ => ⟨S81920x1, .i32⟩
  | .hbm, ⟨59, _⟩ => ⟨S8192x256, .f32⟩
  | .hbm, ⟨60, _⟩ => ⟨S_, .f32⟩
  | .hbm, ⟨61, _⟩ => ⟨S81920, .f32⟩
  | .hbm, ⟨62, _⟩ => ⟨S_, .f32⟩
  | .hbm, ⟨63, _⟩ => ⟨S8192, .f32⟩
  | .hbm, ⟨64, _⟩ => ⟨S81920x1, .i32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x256, .f32⟩
  | .hbm, ⟨71, _⟩ => ⟨S8192x256, .f32⟩
  | .hbm, ⟨72, _⟩ => ⟨S8192x47, .f32⟩
  | .hbm, ⟨73, _⟩ => ⟨S1x47, .f32⟩
  | .hbm, ⟨74, _⟩ => ⟨S8192x47, .f32⟩
  | .hbm, ⟨75, _⟩ => ⟨S8192x47, .f32⟩
  | .hbm, ⟨76, _⟩ => ⟨S8192x47, .f32⟩
  | .hbm, ⟨77, _⟩ => ⟨S8192x47, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192x1, .f32⟩
  | .hbm, ⟨84, _⟩ => ⟨S8192x47, .f32⟩
  | .hbm, ⟨85, _⟩ => ⟨S8192x47, .f32⟩
  | .hbm, ⟨86, _⟩ => ⟨S8192x47, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1, .f32⟩
  | .hbm, ⟨91, _⟩ => ⟨S8192x47, .f32⟩
  | .hbm, ⟨92, _⟩ => ⟨S8192x47, .f32⟩
  | _, _ => ⟨S991232x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S991232x100_S90112x100_0_0 : S991232x100.Slices ![0, 0] S90112x100
  bcast_S_S901120 : S_.BroadcastsInDim S901120 (![] : Fin 0 → Fin S901120.rank)
  bcast_S901120_S901120x1_0 : S901120.BroadcastsInDim S901120x1 (![0] : Fin 1 → Fin S901120x1.rank)
  bcast_S_S90112x100 : S_.BroadcastsInDim S90112x100 (![] : Fin 0 → Fin S90112x100.rank)
  bcast_S_S90112 : S_.BroadcastsInDim S90112 (![] : Fin 0 → Fin S90112.rank)
  bcast_S90112_S90112x1_0 : S90112.BroadcastsInDim S90112x1 (![0] : Fin 1 → Fin S90112x1.rank)
  bcast_S90112x1_S90112x100_0_1 : S90112x1.BroadcastsInDim S90112x100 (![0, 1] : Fin 2 → Fin S90112x100.rank)
  bcast_S256_S1x256_1 : S256.BroadcastsInDim S1x256 (![1] : Fin 1 → Fin S1x256.rank)
  bcast_S1x256_S90112x256_0_1 : S1x256.BroadcastsInDim S90112x256 (![0, 1] : Fin 2 → Fin S90112x256.rank)
  bcast_S_S90112x256 : S_.BroadcastsInDim S90112x256 (![] : Fin 0 → Fin S90112x256.rank)
  slices_S90112x256_S8192x256_0_0 : S90112x256.Slices ![0, 0] S8192x256
  bcast_S_S81920 : S_.BroadcastsInDim S81920 (![] : Fin 0 → Fin S81920.rank)
  bcast_S81920_S81920x1_0 : S81920.BroadcastsInDim S81920x1 (![0] : Fin 1 → Fin S81920x1.rank)
  bcast_S_S8192x256 : S_.BroadcastsInDim S8192x256 (![] : Fin 0 → Fin S8192x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S47_S1x47_1 : S47.BroadcastsInDim S1x47 (![1] : Fin 1 → Fin S1x47.rank)
  bcast_S1x47_S8192x47_0_1 : S1x47.BroadcastsInDim S8192x47 (![0, 1] : Fin 2 → Fin S8192x47.rank)
  reducesTo_S8192x47_S8192_d1 : S8192x47.ReducesTo [1] S8192
  h_S_ : 0 < S_.numel
  bcast_S8192x1_S8192x47_0_1 : S8192x1.BroadcastsInDim S8192x47 (![0, 1] : Fin 2 → Fin S8192x47.rank)
  gather_S991232x100_S901120x1_S901120x100_1_0_n_n_0_1_1100_wf : GatherDims.WF S991232x100 S901120x1 S901120x100 [1] [0] [] [0] [] 1 ![1, 100]
  scatter_S90112x100_S901120x1_S901120x100_1_0_0_1_wf : ScatterDims.WF S90112x100 S901120x1 S901120x100 [1] [0] [0] 1
  scatter_S90112_S901120x1_S901120_n_0_0_1_wf : ScatterDims.WF S90112 S901120x1 S901120 [] [0] [0] 1
  dot_S90112x100_S100x256_S90112x256_1_0_0_1_n_n_wf : DotDims.WF S90112x100 S100x256 S90112x256 [1] [0] [0] [1] [] []
  gather_S90112x256_S81920x1_S81920x256_1_0_n_n_0_1_1256_wf : GatherDims.WF S90112x256 S81920x1 S81920x256 [1] [0] [] [0] [] 1 ![1, 256]
  scatter_S8192x256_S81920x1_S81920x256_1_0_0_1_wf : ScatterDims.WF S8192x256 S81920x1 S81920x256 [1] [0] [0] 1
  scatter_S8192_S81920x1_S81920_n_0_0_1_wf : ScatterDims.WF S8192 S81920x1 S81920 [] [0] [0] 1
  dot_S8192x256_S256x47_S8192x47_1_0_0_1_n_n_wf : DotDims.WF S8192x256 S256x47 S8192x47 [1] [0] [0] [1] [] []

variable [Facts₀]

def gather_S991232x100_S901120x1_S901120x100_1_0_n_n_0_1_1100 : GatherDims S991232x100 S901120x1 S901120x100 where
  offsetDims := [1]
  collapsedSliceDims := [0]
  operandBatchingDims := []
  startIndicesBatchingDims := []
  startIndexMap := [0]
  indexVectorDim := 1
  sliceSizes := ![1, 100]
  wf := gather_S991232x100_S901120x1_S901120x100_1_0_n_n_0_1_1100_wf
def scatter_S90112x100_S901120x1_S901120x100_1_0_0_1 : ScatterDims S90112x100 S901120x1 S901120x100 where
  updateWindowDims := [1]
  insertedWindowDims := [0]
  scatterDimsToOperandDims := [0]
  indexVectorDim := 1
  wf := scatter_S90112x100_S901120x1_S901120x100_1_0_0_1_wf
def scatter_S90112_S901120x1_S901120_n_0_0_1 : ScatterDims S90112 S901120x1 S901120 where
  updateWindowDims := []
  insertedWindowDims := [0]
  scatterDimsToOperandDims := [0]
  indexVectorDim := 1
  wf := scatter_S90112_S901120x1_S901120_n_0_0_1_wf
def dot_S90112x100_S100x256_S90112x256_1_0_0_1_n_n : DotDims S90112x100 S100x256 S90112x256 where
  lhsContracting := [1]
  rhsContracting := [0]
  lhsNonContracting := [0]
  rhsNonContracting := [1]
  lhsBatch := []
  rhsBatch := []
  wf := dot_S90112x100_S100x256_S90112x256_1_0_0_1_n_n_wf
def gather_S90112x256_S81920x1_S81920x256_1_0_n_n_0_1_1256 : GatherDims S90112x256 S81920x1 S81920x256 where
  offsetDims := [1]
  collapsedSliceDims := [0]
  operandBatchingDims := []
  startIndicesBatchingDims := []
  startIndexMap := [0]
  indexVectorDim := 1
  sliceSizes := ![1, 256]
  wf := gather_S90112x256_S81920x1_S81920x256_1_0_n_n_0_1_1256_wf
def scatter_S8192x256_S81920x1_S81920x256_1_0_0_1 : ScatterDims S8192x256 S81920x1 S81920x256 where
  updateWindowDims := [1]
  insertedWindowDims := [0]
  scatterDimsToOperandDims := [0]
  indexVectorDim := 1
  wf := scatter_S8192x256_S81920x1_S81920x256_1_0_0_1_wf
def scatter_S8192_S81920x1_S81920_n_0_0_1 : ScatterDims S8192 S81920x1 S81920 where
  updateWindowDims := []
  insertedWindowDims := [0]
  scatterDimsToOperandDims := [0]
  indexVectorDim := 1
  wf := scatter_S8192_S81920x1_S81920_n_0_0_1_wf
def dot_S8192x256_S256x47_S8192x47_1_0_0_1_n_n : DotDims S8192x256 S256x47 S8192x47 where
  lhsContracting := [1]
  rhsContracting := [0]
  lhsNonContracting := [0]
  rhsNonContracting := [1]
  lhsBatch := []
  rhsBatch := []
  wf := dot_S8192x256_S256x47_S8192x47_1_0_0_1_n_n_wf

class Facts : Prop extends Facts₀ where

variable [Facts]
-- ==== Proof.Aggregate.lean ====
/-
  The neighbour-mean aggregation of a graph-convolution layer, as the host operations compute it.

  For source features `x`, edge sources `src` and edge targets `dst`: every edge gathers the source's row (a negative
  source index is first wrapped by adding the number of rows), the gathered rows are scatter-added into the rows their
  targets name, and each target row is divided by the number of its incoming edges, at least one. The layer's second
  operand is the first rows of the source features: the target nodes are the first nodes.
-/
import proofs.«178286_j85203561218630_1_alg».proof.KernelIdeal
import proofs.«178286_j85203561218630_1_alg».proof.Proof.Gen.KernelIdeal

noncomputable section

namespace Cert.KernelIdeal.Aggregate

open Idealize.ShloMosaic Cert.KernelIdeal Cert.KernelIdeal.Gen

variable {F : FTy → Type} [FloatOps F]

/-- First layer: the mean over incoming edges of the 100 features of the 991232 source nodes, per one of 90112 targets. -/
def meanNeighbours0 (x0 : (⟨S991232x100, .f32⟩ : BufTy).Contents (Elt F)) (x1 x2 : (⟨S901120, .i32⟩ : BufTy).Contents (Elt F)) :
    (⟨S90112x100, .f32⟩ : BufTy).Contents (Elt F) :=
  (Host.divf (Host.scatterAdd scatter_S90112x100_S901120x1_S901120x100_1_0_0_1 (broadcastInDim S90112x100 ![] bcast_S_S90112x100 (constant S_ .f32 0x00000000#32)) (broadcastInDim S901120x1 ![0] bcast_S901120_S901120x1_0 x2) (Host.gather gather_S991232x100_S901120x1_S901120x100_1_0_n_n_0_1_1100 x0 (broadcastInDim S901120x1 ![0] bcast_S901120_S901120x1_0 (select (cmpi .slt x1 (broadcastInDim S901120 ![] bcast_S_S901120 (constantI S_ 32 0#32))) (addi x1 (broadcastInDim S901120 ![] bcast_S_S901120 (constantI S_ 32 991232#32))) x1)))) (broadcastInDim S90112x100 ![0, 1] bcast_S90112x1_S90112x100_0_1 (broadcastInDim S90112x1 ![0] bcast_S90112_S90112x1_0 (maximumf (Host.scatterAdd scatter_S90112_S901120x1_S901120_n_0_0_1 (broadcastInDim S90112 ![] bcast_S_S90112 (constant S_ .f32 0x00000000#32)) (broadcastInDim S901120x1 ![0] bcast_S901120_S901120x1_0 x2) (broadcastInDim S901120 ![] bcast_S_S901120 (constant S_ .f32 0x3F800000#32))) (broadcastInDim S90112 ![] bcast_S_S90112 (constant S_ .f32 0x3F800000#32))))))

/-- First layer: the target nodes' own features, the first 90112 rows. -/
def targets0 (x0 : (⟨S991232x100, .f32⟩ : BufTy).Contents (Elt F)) : (⟨S90112x100, .f32⟩ : BufTy).Contents (Elt F) :=
  extractStridedSlice S90112x100 ![0, 0] x0 slices_S991232x100_S90112x100_0_0

/-- Second layer: the mean over incoming edges of the 256 hidden features of the 90112 nodes, per one of 8192 targets. -/
def meanNeighbours1 (hid : (⟨S90112x256, .f32⟩ : BufTy).Contents (Elt F)) (x3 x4 : (⟨S81920, .i32⟩ : BufTy).Contents (Elt F)) :
    (⟨S8192x256, .f32⟩ : BufTy).Contents (Elt F) :=
  (Host.divf (Host.scatterAdd scatter_S8192x256_S81920x1_S81920x256_1_0_0_1 (broadcastInDim S8192x256 ![] bcast_S_S8192x256 (constant S_ .f32 0x00000000#32)) (broadcastInDim S81920x1 ![0] bcast_S81920_S81920x1_0 x4) (Host.gather gather_S90112x256_S81920x1_S81920x256_1_0_n_n_0_1_1256 hid (broadcastInDim S81920x1 ![0] bcast_S81920_S81920x1_0 (select (cmpi .slt x3 (broadcastInDim S81920 ![] bcast_S_S81920 (constantI S_ 32 0#32))) (addi x3 (broadcastInDim S81920 ![] bcast_S_S81920 (constantI S_ 32 90112#32))) x3)))) (broadcastInDim S8192x256 ![0, 1] bcast_S8192x1_S8192x256_0_1 (broadcastInDim S8192x1 ![0] bcast_S8192_S8192x1_0 (maximumf (Host.scatterAdd scatter_S8192_S81920x1_S81920_n_0_0_1 (broadcastInDim S8192 ![] bcast_S_S8192 (constant S_ .f32 0x00000000#32)) (broadcastInDim S81920x1 ![0] bcast_S81920_S81920x1_0 x4) (broadcastInDim S81920 ![] bcast_S_S81920 (constant S_ .f32 0x3F800000#32))) (broadcastInDim S8192 ![] bcast_S_S8192 (constant S_ .f32 0x3F800000#32))))))

/-- Second layer: the target nodes' own hidden features, the first 8192 rows. -/
def targets1 (hid : (⟨S90112x256, .f32⟩ : BufTy).Contents (Elt F)) : (⟨S8192x256, .f32⟩ : BufTy).Contents (Elt F) :=
  extractStridedSlice S8192x256 ![0, 0] hid slices_S90112x256_S8192x256_0_0

end Cert.KernelIdeal.Aggregate

end
-- ==== Proof.KernelStages.lean ====
/-
  What each kernel finds when it is entered, and what the whole program leaves, named.

  Before the first kernel the host operations leave the neighbour means of the input features and the target nodes' own
  features; the first kernel leaves the clamped combination of those (the hidden features); the host operations between
  the kernels leave the neighbour means of the hidden features and the targets' own hidden features; the second kernel
  leaves the row-wise log-softmax of their combination. No operation writes an argument array.
-/
import proofs.«178286_j85203561218630_1_alg».proof.Proof.Gen.KernelIdeal.Frame
import proofs.«178286_j85203561218630_1_alg».proof.Proof.Aggregate

set_option maxRecDepth 16384

noncomputable section

namespace Cert.KernelIdeal.Stages

open Idealize.ShloMosaic Idealize.ShloMosaic.TcCoe Idealize.ShloMosaic.Tactic Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Entering the first kernel -/

theorem entry0_means (c : Dev nD) :
    V1 m ρ c main_v18 = Aggregate.meanNeighbours0 (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

theorem entry0_targets (c : Dev nD) :
    V1 m ρ c main_v19 = Aggregate.targets0 (m ((c : Thread nD τ).loc main_arg0)) := by
  show StableHlo.after hostOps0 (W0 m ρ c) (Proc.devRef .tc main_v19) = _
  after_results_simp <;> rfl

theorem entry0_arg5 (c : Dev nD) : V1 m ρ c main_arg5 = m ((c : Thread nD τ).loc main_arg5) := by
  show StableHlo.after hostOps0 (W0 m ρ c) (Proc.devRef .tc main_arg5) = _
  after_results_simp <;> rfl
theorem entry0_arg6 (c : Dev nD) : V1 m ρ c main_arg6 = m ((c : Thread nD τ).loc main_arg6) := by
  show StableHlo.after hostOps0 (W0 m ρ c) (Proc.devRef .tc main_arg6) = _
  after_results_simp <;> rfl
theorem entry0_arg7 (c : Dev nD) : V1 m ρ c main_arg7 = m ((c : Thread nD τ).loc main_arg7) := by
  show StableHlo.after hostOps0 (W0 m ρ c) (Proc.devRef .tc main_arg7) = _
  after_results_simp <;> rfl

theorem entry0_arg3 (c : Dev nD) : V1 m ρ c main_arg3 = m ((c : Thread nD τ).loc main_arg3) := by
  show StableHlo.after hostOps0 (W0 m ρ c) (Proc.devRef .tc main_arg3) = _
  after_results_simp <;> rfl
theorem entry0_arg4 (c : Dev nD) : V1 m ρ c main_arg4 = m ((c : Thread nD τ).loc main_arg4) := by
  show StableHlo.after hostOps0 (W0 m ρ c) (Proc.devRef .tc main_arg4) = _
  after_results_simp <;> rfl
theorem entry0_arg8 (c : Dev nD) : V1 m ρ c main_arg8 = m ((c : Thread nD τ).loc main_arg8) := by
  show StableHlo.after hostOps0 (W0 m ρ c) (Proc.devRef .tc main_arg8) = _
  after_results_simp <;> rfl
theorem entry0_arg9 (c : Dev nD) : V1 m ρ c main_arg9 = m ((c : Thread nD τ).loc main_arg9) := by
  show StableHlo.after hostOps0 (W0 m ρ c) (Proc.devRef .tc main_arg9) = _
  after_results_simp <;> rfl
theorem entry0_arg10 (c : Dev nD) : V1 m ρ c main_arg10 = m ((c : Thread nD τ).loc main_arg10) := by
  show StableHlo.after hostOps0 (W0 m ρ c) (Proc.devRef .tc main_arg10) = _
  after_results_simp <;> rfl

/-! ## Between the kernels: no region and no host operation writes an argument -/

theorem mid_arg3 (c : Dev nD) : W2 m ρ c (Proc.devRef .tc main_arg3) = m ((c : Thread nD τ).loc main_arg3) :=
  (W2_of_ne m ρ c main_arg3 (by decide)).trans (entry0_arg3 m ρ c)
theorem mid_arg4 (c : Dev nD) : W2 m ρ c (Proc.devRef .tc main_arg4) = m ((c : Thread nD τ).loc main_arg4) :=
  (W2_of_ne m ρ c main_arg4 (by decide)).trans (entry0_arg4 m ρ c)
theorem mid_arg8 (c : Dev nD) : W2 m ρ c (Proc.devRef .tc main_arg8) = m ((c : Thread nD τ).loc main_arg8) :=
  (W2_of_ne m ρ c main_arg8 (by decide)).trans (entry0_arg8 m ρ c)
theorem mid_arg9 (c : Dev nD) : W2 m ρ c (Proc.devRef .tc main_arg9) = m ((c : Thread nD τ).loc main_arg9) :=
  (W2_of_ne m ρ c main_arg9 (by decide)).trans (entry0_arg9 m ρ c)
theorem mid_arg10 (c : Dev nD) : W2 m ρ c (Proc.devRef .tc main_arg10) = m ((c : Thread nD τ).loc main_arg10) :=
  (W2_of_ne m ρ c main_arg10 (by decide)).trans (entry0_arg10 m ρ c)

/-! ## Entering the second kernel: the hidden features are what the first kernel left in its result array -/

theorem entry1_means (c : Dev nD) :
    V3 m ρ c main_v39 = Aggregate.meanNeighbours1 (W2 m ρ c (Proc.devRef .tc main_v20)) (m ((c : Thread nD τ).loc main_arg3)) (m ((c : Thread nD τ).loc main_arg4)) := by
  show StableHlo.after hostOps1 (W2 m ρ c) (Proc.devRef .tc main_v39) = _
  after_results_simp
  rw [mid_arg3 m ρ c, mid_arg4 m ρ c]
  rfl

theorem entry1_targets (c : Dev nD) :
    V3 m ρ c main_v40 = Aggregate.targets1 (W2 m ρ c (Proc.devRef .tc main_v20)) := by
  show StableHlo.after hostOps1 (W2 m ρ c) (Proc.devRef .tc main_v40) = _
  after_results_simp <;> rfl

theorem entry1_arg8 (c : Dev nD) : V3 m ρ c main_arg8 = m ((c : Thread nD τ).loc main_arg8) := by
  show StableHlo.after hostOps1 (W2 m ρ c) (Proc.devRef .tc main_arg8) = _
  after_results_simp
  exact mid_arg8 m ρ c
theorem entry1_arg9 (c : Dev nD) : V3 m ρ c main_arg9 = m ((c : Thread nD τ).loc main_arg9) := by
  show StableHlo.after hostOps1 (W2 m ρ c) (Proc.devRef .tc main_arg9) = _
  after_results_simp
  exact mid_arg9 m ρ c
theorem entry1_arg10 (c : Dev nD) : V3 m ρ c main_arg10 = m ((c : Thread nD τ).loc main_arg10) := by
  show StableHlo.after hostOps1 (W2 m ρ c) (Proc.devRef .tc main_arg10) = _
  after_results_simp
  exact mid_arg10 m ρ c

end Cert.KernelIdeal.Stages

end
-- ==== Proof.DenseLayers.lean ====
/-
  The two dense layers of a two-hop neighbour-mean graph convolution, as functions of whole arrays over the extended
  reals, index by index.

  Each layer combines a row `r` of the aggregated neighbour features `a` and the same row of the target nodes' own
  features `x` through two weight matrices and a bias:
      combine a x wl wr b r c = (∑ k, a[r,k] · wl[k,c] + ∑ k, x[r,k] · wr[k,c]) + b[c].
  The first layer clamps that at the float word of zero (`reluDense`); the second subtracts from a row its maximum and
  then the logarithm of the sum of the exponentials of the shifted row (`logSoftmaxDense`: a row-wise log-softmax).
  A row of the result depends on row `r` of `a` and `x` only, which is why a kernel may compute it a block of rows at a
  time.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- One entry of a layer before its nonlinearity: row `r` of `a` against column `c` of `wl`, plus row `r` of `x` against
    column `c` of `wr`, plus the bias at `c` — in that order of addition. -/
def combine {n d h : Nat} (a x : (⟨2, ![n, d]⟩ : Shape).Idx → EReal) (wl wr : (⟨2, ![d, h]⟩ : Shape).Idx → EReal)
    (b : (⟨1, ![h]⟩ : Shape).Idx → EReal) (r : Fin n) (c : Fin h) : EReal :=
  (∑ k : Fin d, a (ix2 r k) * wl (ix2 k c) + ∑ k : Fin d, x (ix2 r k) * wr (ix2 k c)) + b (ix1 c)

/-- The same entry with the bias added before the second product, the order a reference written as
    `a @ wl + b + x @ wr` adds in: addition of extended reals is commutative and associative, so nothing is assumed finite. -/
theorem combine_eq_bias_first {n d h : Nat} (a x : (⟨2, ![n, d]⟩ : Shape).Idx → EReal) (wl wr : (⟨2, ![d, h]⟩ : Shape).Idx → EReal)
    (b : (⟨1, ![h]⟩ : Shape).Idx → EReal) (r : Fin n) (c : Fin h) :
    (∑ k : Fin d, a (ix2 r k) * wl (ix2 k c) + b (ix1 c)) + ∑ k : Fin d, x (ix2 r k) * wr (ix2 k c) = combine a x wl wr b r c := by
  unfold combine
  exact add_right_comm _ _ _

/-- The combination at an entry reads only row `r` of `a` and `x`, column `c` of the two weight matrices and entry
    `c` of the bias: two sets of arrays that agree there, at possibly different sizes and positions, give the same
    value. This is why a block of rows of the result is computed from the same block of rows of `a` and `x`. -/
theorem combine_congr {n n' d h h' : Nat} (a x : (⟨2, ![n, d]⟩ : Shape).Idx → EReal) (wl wr : (⟨2, ![d, h]⟩ : Shape).Idx → EReal)
    (b : (⟨1, ![h]⟩ : Shape).Idx → EReal) (a' x' : (⟨2, ![n', d]⟩ : Shape).Idx → EReal) (wl' wr' : (⟨2, ![d, h']⟩ : Shape).Idx → EReal)
    (b' : (⟨1, ![h']⟩ : Shape).Idx → EReal) (r : Fin n) (c : Fin h) (r' : Fin n') (c' : Fin h')
    (ha : ∀ k : Fin d, a (ix2 r k) = a' (ix2 r' k)) (hx : ∀ k : Fin d, x (ix2 r k) = x' (ix2 r' k))
    (hwl : ∀ k : Fin d, wl (ix2 k c) = wl' (ix2 k c')) (hwr : ∀ k : Fin d, wr (ix2 k c) = wr' (ix2 k c'))
    (hb : b (ix1 c) = b' (ix1 c')) :
    combine a x wl wr b r c = combine a' x' wl' wr' b' r' c' := by
  unfold combine
  rw [hb, Finset.sum_congr rfl fun k _ => show a (ix2 r k) * wl (ix2 k c) = a' (ix2 r' k) * wl' (ix2 k c') by rw [ha k, hwl k],
    Finset.sum_congr rfl fun k _ => show x (ix2 r k) * wr (ix2 k c) = x' (ix2 r' k) * wr' (ix2 k c') by rw [hx k, hwr k]]

/-- The first layer: every entry of the combination clamped below at the float word of zero. -/
def reluDense {n d h : Nat} (a x : (⟨2, ![n, d]⟩ : Shape).Idx → EReal) (wl wr : (⟨2, ![d, h]⟩ : Shape).Idx → EReal)
    (b : (⟨1, ![h]⟩ : Shape).Idx → EReal) : (⟨2, ![n, h]⟩ : Shape).Idx → EReal :=
  fun i => max (combine a x wl wr b (i 0) (i 1)) (Ideal.ofBits .f32 0x00000000#32)

/-- The maximum of a row, folded from the float word of minus infinity. -/
def rowMax {h : Nat} (o : Fin h → EReal) : EReal :=
  (Finset.univ : Finset (Fin h)).fold max (Ideal.ofBits .f32 0xFF800000#32) o

/-- The second layer: a row of the combination, shifted by its maximum, minus the logarithm of the sum of the
    exponentials of the shifted row. -/
def logSoftmaxDense {n d h : Nat} (a x : (⟨2, ![n, d]⟩ : Shape).Idx → EReal) (wl wr : (⟨2, ![d, h]⟩ : Shape).Idx → EReal)
    (b : (⟨1, ![h]⟩ : Shape).Idx → EReal) : (⟨2, ![n, h]⟩ : Shape).Idx → EReal :=
  fun i =>
    (combine a x wl wr b (i 0) (i 1) - rowMax (combine a x wl wr b (i 0)))
      - Ideal.log (∑ c : Fin h, Ideal.exp (combine a x wl wr b (i 0) c - rowMax (combine a x wl wr b (i 0))))

end Cert.Dense

end
-- ==== Proof.Layer0Block.lean ====
/-
  One grid point of the first dense layer, read at an entry.

  The body of the first kernel takes a block of 1024 rows of the aggregated neighbour features `a` and of the target
  nodes' own features `x`, the two weight matrices and the bias, and stores
      max ((a · wl + x · wr) + b, 0).
  Over the extended reals a change of float format is the identity and a matrix product into a zero accumulator is
  the plain sum of products over the 100 shared coordinates, so at row `p` and column `q` of the block the stored
  value is the clamped combination `Cert.Dense.combine` of the blocks at `(p, q)`.
-/
import proofs.«178286_j85203561218630_1_alg».proof.Proof.Gen.KernelIdeal.Skeleton
import proofs.«178286_j85203561218630_1_alg».proof.Proof.DenseLayers
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Layer0

open Idealize.ShloMosaic Idealize.ShloMosaic.ValueIdx Cert.KernelIdeal Cert.KernelIdeal.Gen

/-! ## The block product's operand indices: rows of the left operand, columns of the right -/

theorem dot_lhs_row (i : S1024x256.Idx) (q : dot_S1024x100_S100x256_S1024x256_1_0_0_1_n_n.contr.Idx) :
    (dot_S1024x100_S100x256_S1024x256_1_0_0_1_n_n.lhsIdx i q 0).val = (i 0).val := by
  unfold DotDims.lhsIdx
  rw [dif_neg (show ¬(0 : Fin S1024x100.rank) ∈ dot_S1024x100_S100x256_S1024x256_1_0_0_1_n_n.lhsBatch by decide), dif_pos (show (0 : Fin S1024x100.rank) ∈ dot_S1024x100_S100x256_S1024x256_1_0_0_1_n_n.lhsNonContracting by decide)]
  rfl
theorem dot_lhs_shared (i : S1024x256.Idx) (q : dot_S1024x100_S100x256_S1024x256_1_0_0_1_n_n.contr.Idx) :
    (dot_S1024x100_S100x256_S1024x256_1_0_0_1_n_n.lhsIdx i q 1).val = (q ⟨0, by decide⟩).val :=
  dot_S1024x100_S100x256_S1024x256_1_0_0_1_n_n.lhsIdx_val_of_single rfl i q
theorem dot_rhs_shared (i : S1024x256.Idx) (q : dot_S1024x100_S100x256_S1024x256_1_0_0_1_n_n.contr.Idx) :
    (dot_S1024x100_S100x256_S1024x256_1_0_0_1_n_n.rhsIdx i q 0).val = (q ⟨0, by decide⟩).val :=
  dot_S1024x100_S100x256_S1024x256_1_0_0_1_n_n.rhsIdx_val_of_single rfl i q
theorem dot_rhs_col (i : S1024x256.Idx) (q : dot_S1024x100_S100x256_S1024x256_1_0_0_1_n_n.contr.Idx) :
    (dot_S1024x100_S100x256_S1024x256_1_0_0_1_n_n.rhsIdx i q 1).val = (i 1).val := by
  unfold DotDims.rhsIdx
  rw [dif_neg (show ¬(1 : Fin S100x256.rank) ∈ dot_S1024x100_S100x256_S1024x256_1_0_0_1_n_n.rhsBatch by decide), dif_pos (show (1 : Fin S100x256.rank) ∈ dot_S1024x100_S100x256_S1024x256_1_0_0_1_n_n.rhsNonContracting by decide)]
  rfl

/-- A block's matrix product into the zero accumulator, at row `p` and column `q`: the sum over the 100 shared
    coordinates of the left operand's row `p` times the right operand's column `q`. -/
theorem product_apply {φ₁ φ₂ : FTy} (l : FVec Ideal S1024x100 φ₁) (r : FVec Ideal S100x256 φ₂) (p : Fin 1024) (q : Fin 256) :
    matmul dot_S1024x100_S100x256_S1024x256_1_0_0_1_n_n none l r (constant S1024x256 .f32 0x00000000#32) (ix2 p q)
      = ∑ k : Fin 100, l (ix2 p k) * r (ix2 k q) := by
  simp only [matmul]
  rw [Ideal.matmul_constant_zero_apply, ← Equiv.sum_comp (ValueIdx.contrEquiv1 dot_S1024x100_S100x256_S1024x256_1_0_0_1_n_n 100 rfl rfl).symm]
  refine Finset.sum_congr rfl fun k _ => ?_
  have hk := ValueIdx.contrEquiv1_symm_val dot_S1024x100_S100x256_S1024x256_1_0_0_1_n_n 100 rfl rfl k
  have el : dot_S1024x100_S100x256_S1024x256_1_0_0_1_n_n.lhsIdx (ix2 p q) ((ValueIdx.contrEquiv1 dot_S1024x100_S100x256_S1024x256_1_0_0_1_n_n 100 rfl rfl).symm k) = ix2 p k := funext fun a => Fin.ext (by
    match a with
    | ⟨0, _⟩ => exact dot_lhs_row _ _
    | ⟨1, _⟩ => exact (dot_lhs_shared _ _).trans hk)
  have er : dot_S1024x100_S100x256_S1024x256_1_0_0_1_n_n.rhsIdx (ix2 p q) ((ValueIdx.contrEquiv1 dot_S1024x100_S100x256_S1024x256_1_0_0_1_n_n 100 rfl rfl).symm k) = ix2 k q := funext fun a => Fin.ext (by
    match a with
    | ⟨0, _⟩ => exact (dot_rhs_shared _ _).trans hk
    | ⟨1, _⟩ => exact dot_rhs_col _ _)
  rw [el, er]

/-- The bias, a vector of 256 entries laid out as one row and repeated down the 1024 rows, reads at `(p, q)` its
    entry `q`. -/
theorem bias_apply (b : Vec Ideal S256 .f32) (p : Fin 1024) (q : Fin 256) :
    broadcastTo S1024x256 (shapeCast S1x256 b shapeCasts_S256_S1x256) broadcasts_S1x256_S1024x256 (ix2 p q) = b (ix1 q) := by
  rw [broadcastTo_1b_ab_apply, shapeCast_a_1a_apply]

/-- THE BODY AT AN ENTRY: the value the first kernel stores at row `p`, column `q` of its block is the combination
    of the loaded blocks there, clamped below at the float word of zero. -/
theorem payload_apply (a x : Vec Ideal S1024x100 .f32) (wl wr : Vec Ideal S100x256 .f32) (b : Vec Ideal S256 .f32)
    (p : Fin 1024) (q : Fin 256) :
    k0_pay1 (F := Ideal) a x wl wr b (ix2 p q)
      = max (Cert.Dense.combine (n := 1024) (d := 100) (h := 256) a x wl wr b p q) (Ideal.ofBits .f32 0x00000000#32) := by
  unfold k0_pay1
  simp only [shapeCast_self]
  rw [maximumf_apply, addf_apply, addf_apply, product_apply, product_apply, bias_apply]
  rfl

end Cert.KernelIdeal.Layer0

end
-- ==== Proof.Layer0Array.lean ====
/-
  The first dense layer as a whole array: what the 88 grid points of the first kernel leave behind.

  Grid point `t` reads rows `1024 t … 1024 t + 1023` of the aggregated features and of the target features, and the two
  weight matrices and the bias whole, and writes back rows `1024 t … 1024 t + 1023` of the result. An entry of the
  combination reads one row of the features only, so what point `t` writes back is that block of rows of
  `Cert.Dense.reluDense` of the whole arrays; and row `r` lies in the block of point `r / 1024`, so the 88 blocks
  cover the array, which therefore ends holding `reluDense` of the arrays the region found.
-/
import proofs.«178286_j85203561218630_1_alg».proof.Proof.Gen.KernelIdeal.Frame
import proofs.«178286_j85203561218630_1_alg».proof.Proof.Layer0Block

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The index maps over the grid: the two feature windows and the result window sit at block row `t`, block column 0;
    the weight and bias windows are the whole arrays at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the clamped combination of the arrays as the region finds them. -/
theorem flushed_eq (c : Dev nD) (t : Fin cfg0.N) :
    (dat0 (F := Ideal) V c).flushed 5 t
      = ((cfg0.win 5).blk t).view.read (Elt Ideal)
          (Cert.Dense.reluDense (n := 90112) (d := 100) (h := 256) (V c main_v18) (V c main_v19) (V c main_arg5) (V c main_arg7) (V c main_arg6)) := by
  show (cfg0.win 5).cut (grid0.coords t) ((dat0 V c).after 5 t) = _
  rw [after0_5]
  unfold out0_5
  rw [View.canon_unit_zero origin2]
  simp only [View.ld_unit_zero (S := S1024x100) origin2, View.ld_unit_zero (S := S100x256) origin2, View.ld_unit_zero (S := S256) origin1]
  obtain ⟨e00, e01, e10, e11, e20, e21, e30, e40, e41, e50, e51⟩ := block_indices t
  funext j
  obtain ⟨p, q, rfl⟩ : ∃ (p : Fin 1024) (q : Fin 256), j = ix2 p q := ⟨j 0, j 1, eq_ix2 j⟩
  refine (payload_apply (iblk0 V c 0 t) (iblk0 V c 1 t) (iblk0 V c 2 t) (iblk0 V c 4 t) (iblk0 V c 3 t) p q).trans ?_
  show max _ _ = max _ _
  refine congrArg (max · (Ideal.ofBits .f32 0x00000000#32)) ?_
  refine Cert.Dense.combine_congr (n := 1024) (n' := 90112) (d := 100) (h := 256) (h' := 256) _ _ _ _ _ _ _ _ _ _ p q _ _ (fun k => ?_) (fun k => ?_) (fun k => ?_) (fun k => ?_) ?_
  · show V c main_v18 (((cfg0.win 0).blk t).view.emb (ix2 p k)) = V c main_v18 (ix2 ((((cfg0.win 5).blk t).view.emb (ix2 p q)) 0) k)
    refine congrArg (V c main_v18) (funext fun a => Fin.ext ?_)
    match a with
    | ⟨0, _⟩ => show win0_0.index t (0 : Fin 2) * 1024 + 1 * p.val = win0_5.index t (0 : Fin 2) * 1024 + 1 * p.val; omega
    | ⟨1, _⟩ => show win0_0.index t (1 : Fin 2) * 100 + 1 * k.val = k.val; omega
  · show V c main_v19 (((cfg0.win 1).blk t).view.emb (ix2 p k)) = V c main_v19 (ix2 ((((cfg0.win 5).blk t).view.emb (ix2 p q)) 0) k)
    refine congrArg (V c main_v19) (funext fun a => Fin.ext ?_)
    match a with
    | ⟨0, _⟩ => show win0_1.index t (0 : Fin 2) * 1024 + 1 * p.val = win0_5.index t (0 : Fin 2) * 1024 + 1 * p.val; omega
    | ⟨1, _⟩ => show win0_1.index t (1 : Fin 2) * 100 + 1 * k.val = k.val; omega
  · show V c main_arg5 (((cfg0.win 2).blk t).view.emb (ix2 k q)) = V c main_arg5 (ix2 k ((((cfg0.win 5).blk t).view.emb (ix2 p q)) 1))
    refine congrArg (V c main_arg5) (funext fun a => Fin.ext ?_)
    match a with
    | ⟨0, _⟩ => show win0_2.index t (0 : Fin 2) * 100 + 1 * k.val = k.val; omega
    | ⟨1, _⟩ => show win0_2.index t (1 : Fin 2) * 256 + 1 * q.val = win0_5.index t (1 : Fin 2) * 256 + 1 * q.val; omega
  · show V c main_arg7 (((cfg0.win 4).blk t).view.emb (ix2 k q)) = V c main_arg7 (ix2 k ((((cfg0.win 5).blk t).view.emb (ix2 p q)) 1))
    refine congrArg (V c main_arg7) (funext fun a => Fin.ext ?_)
    match a with
    | ⟨0, _⟩ => show win0_4.index t (0 : Fin 2) * 100 + 1 * k.val = k.val; omega
    | ⟨1, _⟩ => show win0_4.index t (1 : Fin 2) * 256 + 1 * q.val = win0_5.index t (1 : Fin 2) * 256 + 1 * q.val; omega
  · show V c main_arg6 (((cfg0.win 3).blk t).view.emb (ix1 q)) = V c main_arg6 (ix1 ((((cfg0.win 5).blk t).view.emb (ix2 p q)) 1))
    refine congrArg (V c main_arg6) (funext fun a => Fin.ext ?_)
    match a with
    | ⟨0, _⟩ => show win0_3.index t (0 : Fin 1) * 256 + 1 * q.val = win0_5.index t (1 : Fin 2) * 256 + 1 * q.val; omega

/-- An entry of the result array is in point `t`'s block iff each coordinate is in the block's range on its axis. -/
theorem mem_block (t : Fin cfg0.N) (i : S90112x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v20).slice (win0_5.rect t)).set ↔ _
  rw [View.set_slice_whole, Rect.mem_set_unit]
  exact Iff.rfl

/-- Every entry is in some point's block: row `r` in the block of point `r / 1024`. -/
theorem covered (i : S90112x256.Idx) :
    ∃ t : Fin cfg0.N, (cfg0.win 5).flush t = true ∧ i ∈ ((cfg0.win 5).blk t).view.set := by
  have hN : grid0.N = 88 := N_0
  have hi0 : (i 0).val < 90112 := (i 0).isLt
  have hi1 : (i 1).val < 256 := (i 1).isLt
  refine ⟨⟨(i 0).val / 1024, by show (i 0).val / 1024 < grid0.N; omega⟩, flush0_5 _, ?_⟩
  rw [mem_block]
  obtain ⟨-, -, -, -, -, -, -, -, -, e50, e51⟩ := block_indices ⟨(i 0).val / 1024, by show (i 0).val / 1024 < grid0.N; omega⟩
  intro a
  match a with
  | ⟨0, _⟩ =>
    show win0_5.index _ (0 : Fin 2) * 1024 ≤ (i 0).val ∧ (i 0).val < win0_5.index _ (0 : Fin 2) * 1024 + 1024
    rw [e50]; show (i 0).val / 1024 * 1024 ≤ (i 0).val ∧ (i 0).val < (i 0).val / 1024 * 1024 + 1024; omega
  | ⟨1, _⟩ =>
    show win0_5.index _ (1 : Fin 2) * 256 ≤ (i 1).val ∧ (i 1).val < win0_5.index _ (1 : Fin 2) * 256 + 256
    rw [e51]; omega

/-- THE ARRAY after the first kernel: the clamped combination of the arrays the region found. -/
theorem array (c : Dev nD) :
    (dat0 (F := Ideal) V c).arrAt 5 cfg0.N
      = Cert.Dense.reluDense (n := 90112) (d := 100) (h := 256) (V c main_v18) (V c main_v19) (V c main_arg5) (V c main_arg7) (V c main_arg6) :=
  (dat0 (F := Ideal) V c).arrAt_eq_of_cover 5 _ (fun t _ => flushed_eq V c t) (covered)

end Cert.KernelIdeal.Layer0

end
-- ==== Proof.Layer1Block.lean ====
/-
  The second layer's kernel body at an index, over the extended reals.

  The body of the row-wise log-softmax kernel is one pure term of the five blocks it loads: a block of 1024 rows of the
  aggregated neighbour features and of the target nodes' own features, the two weight matrices and the bias. Here that
  term is read at an index `(p, q)` of its `[1024, 47]` result: the two products and the bias add up to
  `Cert.Dense.combine` of the blocks at `(p, q)`; the maximum over the 47 columns, folded from minus infinity, is the
  row's `Cert.Dense.rowMax`; the row shifted by it, exponentiated, summed over the columns, its logarithm subtracted —
  `Cert.Dense.logSoftmaxDense` of the blocks, entry by entry (`payload_apply`).

  One small lemma per operation that is not pointwise: the product read at an index (four lemmas on the operands'
  coordinates, then `product_apply`), the bias row repeated down the rows (`bias_apply`), a per-row value kept as a
  column and repeated along the columns (`shapeCast_a_a1_apply`, `broadcastTo_a1_ab_apply`, `column_apply`,
  `log_column_apply`), and the two reductions along a row (`lift_row`, `rowMax_apply`, `rowSum_apply`).
-/
import proofs.«178286_j85203561218630_1_alg».proof.Proof.Gen.KernelIdeal.Skeleton
import proofs.«178286_j85203561218630_1_alg».proof.Proof.DenseLayers
import Idealize.ShloMosaic.Lib.ValueLayout
import Idealize.ShloMosaic.Lib.ValueIdx
import Idealize.ShloMosaic.PureOps.Ideal.Laws

noncomputable section

namespace Cert.KernelIdeal.Layer1

open Idealize.ShloMosaic Idealize.ShloMosaic.ValueIdx
open Cert.KernelIdeal Cert.KernelIdeal.Gen

/-! ## The two products of the layer

The kernel's `tpu.matmul` contracts axis 1 of its left operand with axis 0 of its right operand and has no batch axis:
at output index `(p, q)` and contraction coordinate `k` the operands are read at `(p, k)` and `(k, q)`. -/

/-- The left operand's row is the output's row. -/
theorem lhs_row (i : S1024x47.Idx) (t : dot_S1024x256_S256x47_S1024x47_1_0_0_1_n_n.contr.Idx) :
    (dot_S1024x256_S256x47_S1024x47_1_0_0_1_n_n.lhsIdx i t 0).val = (i 0).val := by
  unfold DotDims.lhsIdx
  rw [dif_neg (show ¬(0 : Fin S1024x256.rank) ∈ dot_S1024x256_S256x47_S1024x47_1_0_0_1_n_n.lhsBatch by decide), dif_pos (show (0 : Fin S1024x256.rank) ∈ dot_S1024x256_S256x47_S1024x47_1_0_0_1_n_n.lhsNonContracting by decide)]
  rfl
/-- The left operand's column is the contraction coordinate. -/
theorem lhs_contr (i : S1024x47.Idx) (t : dot_S1024x256_S256x47_S1024x47_1_0_0_1_n_n.contr.Idx) :
    (dot_S1024x256_S256x47_S1024x47_1_0_0_1_n_n.lhsIdx i t 1).val = (t ⟨0, by decide⟩).val :=
  dot_S1024x256_S256x47_S1024x47_1_0_0_1_n_n.lhsIdx_val_of_single rfl i t
/-- The right operand's row is the contraction coordinate. -/
theorem rhs_contr (i : S1024x47.Idx) (t : dot_S1024x256_S256x47_S1024x47_1_0_0_1_n_n.contr.Idx) :
    (dot_S1024x256_S256x47_S1024x47_1_0_0_1_n_n.rhsIdx i t 0).val = (t ⟨0, by decide⟩).val :=
  dot_S1024x256_S256x47_S1024x47_1_0_0_1_n_n.rhsIdx_val_of_single rfl i t
/-- The right operand's column is the output's column. -/
theorem rhs_col (i : S1024x47.Idx) (t : dot_S1024x256_S256x47_S1024x47_1_0_0_1_n_n.contr.Idx) :
    (dot_S1024x256_S256x47_S1024x47_1_0_0_1_n_n.rhsIdx i t 1).val = (i 1).val := by
  unfold DotDims.rhsIdx
  rw [dif_neg (show ¬(1 : Fin S256x47.rank) ∈ dot_S1024x256_S256x47_S1024x47_1_0_0_1_n_n.rhsBatch by decide), dif_pos (show (1 : Fin S256x47.rank) ∈ dot_S1024x256_S256x47_S1024x47_1_0_0_1_n_n.rhsNonContracting by decide)]
  rfl

/-- A block of rows times a weight matrix, accumulated from zero, at `(p, q)`: row `p` against column `q`. -/
theorem product_apply (l : FVec Ideal S1024x256 .bf16) (r : FVec Ideal S256x47 .bf16) (p : Fin 1024) (q : Fin 47) :
    matmul dot_S1024x256_S256x47_S1024x47_1_0_0_1_n_n none l r (constant (F := Ideal) S1024x47 .f32 0x00000000#32) (ix2 p q)
      = ∑ k : Fin 256, l (ix2 p k) * r (ix2 k q) := by
  simp only [matmul]
  rw [Ideal.matmul_constant_zero_apply, ← Equiv.sum_comp (contrEquiv1 dot_S1024x256_S256x47_S1024x47_1_0_0_1_n_n 256 rfl rfl).symm]
  refine Finset.sum_congr rfl fun k _ => ?_
  have hk := contrEquiv1_symm_val dot_S1024x256_S256x47_S1024x47_1_0_0_1_n_n 256 rfl rfl k
  have el : dot_S1024x256_S256x47_S1024x47_1_0_0_1_n_n.lhsIdx (ix2 p q) ((contrEquiv1 dot_S1024x256_S256x47_S1024x47_1_0_0_1_n_n 256 rfl rfl).symm k) = ix2 p k := funext fun a => Fin.ext (by
    match a with
    | ⟨0, _⟩ => exact lhs_row _ _
    | ⟨1, _⟩ => exact (lhs_contr _ _).trans hk)
  have er : dot_S1024x256_S256x47_S1024x47_1_0_0_1_n_n.rhsIdx (ix2 p q) ((contrEquiv1 dot_S1024x256_S256x47_S1024x47_1_0_0_1_n_n 256 rfl rfl).symm k) = ix2 k q := funext fun a => Fin.ext (by
    match a with
    | ⟨0, _⟩ => exact (rhs_contr _ _).trans hk
    | ⟨1, _⟩ => exact rhs_col _ _)
  rw [el, er]

/-! ## The bias row and the keepdims columns -/

/-- The bias `[47]`, viewed `[1, 47]` and repeated down the 1024 rows, reads its entry `q` at `(p, q)`. -/
theorem bias_apply (b : FVec Ideal S47 .f32) (p : Fin 1024) (q : Fin 47) :
    broadcastTo S1024x47 (shapeCast S1x47 b shapeCasts_S47_S1x47) broadcasts_S1x47_S1024x47 (ix2 p q) = b (ix1 q) :=
  (broadcastTo_1b_ab_apply _ broadcasts_S1x47_S1024x47 p q).trans (shapeCast_a_1a_apply b shapeCasts_S47_S1x47 0 q)

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value `[1024]`, viewed as a column `[1024, 1]` and repeated along the 47 columns, reads row `p`'s value at `(p, q)`. -/
theorem column_apply (v : FVec Ideal S1024 .f32) (p : Fin 1024) (q : Fin 47) :
    broadcastTo S1024x47 (shapeCast S1024x1 v shapeCasts_S1024_S1024x1) broadcasts_S1024x1_S1024x47 (ix2 p q) = v (ix1 p) :=
  (broadcastTo_a1_ab_apply _ broadcasts_S1024x1_S1024x47 p q).trans (shapeCast_a_a1_apply v shapeCasts_S1024_S1024x1 p 0)

/-- The same column with the logarithm taken on it before it is repeated. -/
theorem log_column_apply (v : FVec Ideal S1024 .f32) (p : Fin 1024) (q : Fin 47) :
    broadcastTo S1024x47 (log (shapeCast S1024x1 v shapeCasts_S1024_S1024x1)) broadcasts_S1024x1_S1024x47 (ix2 p q) = Ideal.log (v (ix1 p)) :=
  (broadcastTo_a1_ab_apply _ broadcasts_S1024x1_S1024x47 p q).trans
    (congrArg Ideal.log (shapeCast_a_a1_apply v shapeCasts_S1024_S1024x1 p 0))

/-! ## The two reductions along a row -/

/-- The reduced index `p` with the column `k` put back is `(p, k)`. -/
theorem lift_row (p : Fin 1024) (k : Fin 47) : reduces_S1024x47_S1024.lift (ix1 p) k = ix2 p k := by
  funext a
  match a with
  | ⟨0, _⟩ => rfl
  | ⟨1, _⟩ => rfl

/-- The maximum over the columns, folded from minus infinity, at row `p`: the row's maximum. -/
theorem rowMax_apply (o : FVec Ideal S1024x47 .f32) (p : Fin 1024) :
    multiReduction .maximumf [1] S1024 o 0xFF800000#32 reduces_S1024x47_S1024 (.inl rfl) rfl (ix1 p)
      = Cert.Dense.rowMax (fun c : Fin 47 => o (ix2 p c)) := by
  refine (Ideal.multiReduction_maximumf_single o 0xFF800000#32 reduces_S1024x47_S1024 (.inl rfl) rfl (ix1 p)).trans ?_
  unfold Cert.Dense.rowMax
  exact congrArg (Finset.fold max (Ideal.ofBits .f32 0xFF800000#32) · (Finset.univ : Finset (Fin 47))) (funext fun k => congrArg o (lift_row p k))

/-- The sum over the columns, from zero, at row `p`: the row's sum. -/
theorem rowSum_apply (e : FVec Ideal S1024x47 .f32) (p : Fin 1024) :
    multiReduction .add [1] S1024 e 0x00000000#32 reduces_S1024x47_S1024 (.inl rfl) rfl (ix1 p) = ∑ c : Fin 47, e (ix2 p c) := by
  refine (Ideal.multiReduction_add_single e 0x00000000#32 reduces_S1024x47_S1024 (.inl rfl) rfl (ix1 p)).trans ?_
  exact Finset.sum_congr rfl fun k _ => congrArg e (lift_row p k)

/-! ## The body, cut where the mathematics cuts it -/

/-- The layer before its nonlinearity on a block of rows: both products, added, plus the bias row. The operands go
    through a change of float format that is the identity on extended reals. -/
def preActivation (x0 x1 : Vec Ideal S1024x256 .f32) (x2 x4 : Vec Ideal S256x47 .f32) (x3 : Vec Ideal S47 .f32) : FVec Ideal S1024x47 .f32 :=
  addf (addf
      (matmul dot_S1024x256_S256x47_S1024x47_1_0_0_1_n_n none (truncf .bf16 (shapeCast S1024x256 x0 shapeCasts_S1024x256_S1024x256) bitsLt_bf16_f32) (truncf .bf16 x2 bitsLt_bf16_f32) (constant S1024x47 .f32 0x00000000#32))
      (matmul dot_S1024x256_S256x47_S1024x47_1_0_0_1_n_n none (truncf .bf16 (shapeCast S1024x256 x1 shapeCasts_S1024x256_S1024x256) bitsLt_bf16_f32) (truncf .bf16 x4 bitsLt_bf16_f32) (constant S1024x47 .f32 0x00000000#32)))
    (broadcastTo S1024x47 (shapeCast S1x47 x3 shapeCasts_S47_S1x47) broadcasts_S1x47_S1024x47)

/-- A block with each row shifted by its maximum. -/
def shifted (o : FVec Ideal S1024x47 .f32) : FVec Ideal S1024x47 .f32 :=
  subf o (broadcastTo S1024x47 (shapeCast S1024x1 (multiReduction .maximumf [1] S1024 o 0xFF800000#32 reduces_S1024x47_S1024 (.inl rfl) rfl) shapeCasts_S1024_S1024x1) broadcasts_S1024x1_S1024x47)

/-- The shifted block minus, row by row, the logarithm of the sum of its exponentials. -/
def logSoftmaxRows (o : FVec Ideal S1024x47 .f32) : FVec Ideal S1024x47 .f32 :=
  subf (shifted o) (broadcastTo S1024x47 (log (shapeCast S1024x1 (multiReduction .add [1] S1024 (exp (shifted o)) 0x00000000#32 reduces_S1024x47_S1024 (.inl rfl) rfl) shapeCasts_S1024_S1024x1)) broadcasts_S1024x1_S1024x47)

/-- The kernel body's one pure term is the composition of those pieces (its named intermediate values substituted). -/
theorem payload_eq (x0 x1 : Vec Ideal S1024x256 .f32) (x2 x4 : Vec Ideal S256x47 .f32) (x3 : Vec Ideal S47 .f32) :
    k1_pay1 (F := Ideal) x0 x1 x2 x4 x3 = logSoftmaxRows (preActivation x0 x1 x2 x4 x3) := rfl

/-- Before the nonlinearity the block holds `Cert.Dense.combine` of the loaded blocks. -/
theorem preActivation_apply (x0 x1 : Vec Ideal S1024x256 .f32) (x2 x4 : Vec Ideal S256x47 .f32) (x3 : Vec Ideal S47 .f32)
    (p : Fin 1024) (q : Fin 47) :
    preActivation x0 x1 x2 x4 x3 (ix2 p q) = Cert.Dense.combine (n := 1024) (d := 256) (h := 47) x0 x1 x2 x4 x3 p q := by
  unfold preActivation Cert.Dense.combine
  rw [addf_apply, addf_apply, product_apply, product_apply, bias_apply, shapeCast_self, shapeCast_self]
  rfl

/-- A shifted entry: the entry minus its row's maximum. -/
theorem shifted_apply (o : FVec Ideal S1024x47 .f32) (p : Fin 1024) (q : Fin 47) :
    shifted o (ix2 p q) = o (ix2 p q) - Cert.Dense.rowMax (fun c : Fin 47 => o (ix2 p c)) := by
  unfold shifted
  rw [subf_apply, column_apply, rowMax_apply]

/-- The row-wise log-softmax of a block at an entry. -/
theorem logSoftmaxRows_apply (o : FVec Ideal S1024x47 .f32) (p : Fin 1024) (q : Fin 47) :
    logSoftmaxRows o (ix2 p q)
      = (o (ix2 p q) - Cert.Dense.rowMax (fun c : Fin 47 => o (ix2 p c)))
        - Ideal.log (∑ c : Fin 47, Ideal.exp (o (ix2 p c) - Cert.Dense.rowMax (fun c' : Fin 47 => o (ix2 p c')))) := by
  unfold logSoftmaxRows
  rw [subf_apply, log_column_apply, rowSum_apply, shifted_apply]
  refine congrArg (fun s => _ - Ideal.log s) (Finset.sum_congr rfl fun c _ => ?_)
  show Ideal.exp (shifted o (ix2 p c)) = _
  rw [shifted_apply]

/-- THE BODY AT AN INDEX: the kernel body's result at `(p, q)` is the row-wise log-softmax layer of the five loaded
    blocks at `(p, q)`. -/
theorem payload_apply (x0 x1 : Vec Ideal S1024x256 .f32) (x2 x4 : Vec Ideal S256x47 .f32) (x3 : Vec Ideal S47 .f32)
    (p : Fin 1024) (q : Fin 47) :
    k1_pay1 (F := Ideal) x0 x1 x2 x4 x3 (ix2 p q)
      = Cert.Dense.logSoftmaxDense (n := 1024) (d := 256) (h := 47) x0 x1 x2 x4 x3 (ix2 p q) := by
  rw [payload_eq, logSoftmaxRows_apply]
  unfold Cert.Dense.logSoftmaxDense
  simp only [preActivation_apply]

/-! ## A block of rows against the whole arrays -/

/-- THE BODY ON A BLOCK OF ROWS OF THE WHOLE ARRAYS. If row `p` of the two loaded feature blocks is row `r` of the
    whole feature arrays, and the weights and the bias are loaded whole, the body's result at `(p, q)` is the layer of
    the whole arrays at `(r, q)`: an entry of the layer reads one row of the features only
    (`Cert.Dense.combine_congr`), so its row maximum and its row sum are those of row `r`. -/
theorem payload_apply_of_rows (A X : S8192x256.Idx → EReal) (Wl Wr : S256x47.Idx → EReal) (B : S47.Idx → EReal)
    (x0 x1 : Vec Ideal S1024x256 .f32) (x2 x4 : Vec Ideal S256x47 .f32) (x3 : Vec Ideal S47 .f32)
    (p : Fin 1024) (q : Fin 47) (r : Fin 8192)
    (h0 : ∀ k : Fin 256, x0 (ix2 p k) = A (ix2 r k)) (h1 : ∀ k : Fin 256, x1 (ix2 p k) = X (ix2 r k))
    (h2 : x2 = Wl) (h4 : x4 = Wr) (h3 : x3 = B) :
    k1_pay1 (F := Ideal) x0 x1 x2 x4 x3 (ix2 p q)
      = Cert.Dense.logSoftmaxDense (n := 8192) (d := 256) (h := 47) A X Wl Wr B (ix2 r q) := by
  subst h2 h4 h3
  have hrow : Cert.Dense.combine (n := 1024) (d := 256) (h := 47) x0 x1 x2 x4 x3 p
      = Cert.Dense.combine (n := 8192) (d := 256) (h := 47) A X x2 x4 x3 r :=
    funext fun c => Cert.Dense.combine_congr x0 x1 x2 x4 x3 A X x2 x4 x3 p c r c h0 h1 (fun _ => rfl) (fun _ => rfl) rfl
  rw [payload_apply]
  show (Cert.Dense.combine (n := 1024) (d := 256) (h := 47) x0 x1 x2 x4 x3 p q - Cert.Dense.rowMax (Cert.Dense.combine (n := 1024) (d := 256) (h := 47) x0 x1 x2 x4 x3 p))
      - Ideal.log (∑ c : Fin 47, Ideal.exp (Cert.Dense.combine (n := 1024) (d := 256) (h := 47) x0 x1 x2 x4 x3 p c - Cert.Dense.rowMax (Cert.Dense.combine (n := 1024) (d := 256) (h := 47) x0 x1 x2 x4 x3 p)))
    = (Cert.Dense.combine (n := 8192) (d := 256) (h := 47) A X x2 x4 x3 r q - Cert.Dense.rowMax (Cert.Dense.combine (n := 8192) (d := 256) (h := 47) A X x2 x4 x3 r))
      - Ideal.log (∑ c : Fin 47, Ideal.exp (Cert.Dense.combine (n := 8192) (d := 256) (h := 47) A X x2 x4 x3 r c - Cert.Dense.rowMax (Cert.Dense.combine (n := 8192) (d := 256) (h := 47) A X x2 x4 x3 r)))
  rw [hrow]

end Cert.KernelIdeal.Layer1

end
-- ==== Proof.Layer1Array.lean ====
/-
  From blocks to the array: the second layer's output array after its region has run.

  The region's grid has 8 points; point `t` loads rows `t·1024 … t·1024 + 1023` of the aggregated neighbour features and of
  the target nodes' own features, the two weight matrices and the bias whole, and writes back rows
  `t·1024 … t·1024 + 1023` of the result. An entry of the row-wise log-softmax layer reads one row of the features only,
  so what point `t` writes back is block `t` of the layer of the WHOLE arrays (`flushed_eq`); the 8 blocks cover the 8192
  rows (`covered`: row `r` is in the block of point `r / 1024`), so the array ends holding the layer (`array`).
-/
import proofs.«178286_j85203561218630_1_alg».proof.Proof.Gen.KernelIdeal.Frame
import proofs.«178286_j85203561218630_1_alg».proof.Proof.DenseLayers
import proofs.«178286_j85203561218630_1_alg».proof.Proof.Layer1Block
import Idealize.ShloMosaic.Lib.Pipeline.Value

noncomputable section

namespace Cert.KernelIdeal.Layer1

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The block indices of the six windows, decided over the 8 grid points: the two feature windows and the result window
    move with the point along the rows; the weights and the bias are one block, the whole array, at every point. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks as rows of the arrays

A block's coordinate in its array is, on each axis, the block index times the block's size plus the coordinate inside
the block. -/

/-- Row `p` of the block of aggregated features at point `t` is row `t·1024 + p` of the array. -/
theorem agg_block_apply (c : Dev nD) (t : Fin cfg1.N) (p : Fin 1024) (k : Fin 256) (r : Fin 8192) (hr : r.val = t.val * 1024 + p.val) :
    (iblk1 V c 0 t : Vec Ideal S1024x256 .f32) (ix2 p k) = (V c main_v39 : S8192x256.Idx → EReal) (ix2 r k) := by
  obtain ⟨e0, e1, -⟩ := block_indices t
  unfold iblk1
  rw [View.read_apply]
  refine congrArg (V c main_v39 : S8192x256.Idx → EReal) (funext fun a => Fin.ext ?_)
  match a with
  | ⟨0, _⟩ => show win1_0.index t (0 : Fin 2) * 1024 + 1 * p.val = r.val; rw [e0, hr]; omega
  | ⟨1, _⟩ => show win1_0.index t (1 : Fin 2) * 256 + 1 * k.val = k.val; rw [e1]; omega

/-- Row `p` of the block of the target nodes' own features at point `t` is row `t·1024 + p` of the array. -/
theorem tgt_block_apply (c : Dev nD) (t : Fin cfg1.N) (p : Fin 1024) (k : Fin 256) (r : Fin 8192) (hr : r.val = t.val * 1024 + p.val) :
    (iblk1 V c 1 t : Vec Ideal S1024x256 .f32) (ix2 p k) = (V c main_v40 : S8192x256.Idx → EReal) (ix2 r k) := by
  obtain ⟨-, -, e0, e1, -⟩ := block_indices t
  unfold iblk1
  rw [View.read_apply]
  refine congrArg (V c main_v40 : S8192x256.Idx → EReal) (funext fun a => Fin.ext ?_)
  match a with
  | ⟨0, _⟩ => show win1_1.index t (0 : Fin 2) * 1024 + 1 * p.val = r.val; rw [e0, hr]; omega
  | ⟨1, _⟩ => show win1_1.index t (1 : Fin 2) * 256 + 1 * k.val = k.val; rw [e1]; omega

/-- The first weight matrix is loaded whole at every point. -/
theorem wl_block (c : Dev nD) (t : Fin cfg1.N) :
    (iblk1 V c 2 t : Vec Ideal S256x47 .f32) = (V c main_arg8 : S256x47.Idx → EReal) := by
  obtain ⟨-, -, -, -, e0, e1, -⟩ := block_indices t
  funext y
  unfold iblk1
  rw [View.read_apply]
  refine congrArg (V c main_arg8 : S256x47.Idx → EReal) (funext fun a => Fin.ext ?_)
  match a with
  | ⟨0, _⟩ => show win1_2.index t (0 : Fin 2) * 256 + 1 * (y 0).val = (y 0).val; rw [e0]; omega
  | ⟨1, _⟩ => show win1_2.index t (1 : Fin 2) * 47 + 1 * (y 1).val = (y 1).val; rw [e1]; omega

/-- The bias is loaded whole at every point. -/
theorem bias_block (c : Dev nD) (t : Fin cfg1.N) :
    (iblk1 V c 3 t : Vec Ideal S47 .f32) = (V c main_arg9 : S47.Idx → EReal) := by
  obtain ⟨-, -, -, -, -, -, e0, -⟩ := block_indices t
  funext y
  unfold iblk1
  rw [View.read_apply]
  refine congrArg (V c main_arg9 : S47.Idx → EReal) (funext fun a => Fin.ext ?_)
  match a with
  | ⟨0, _⟩ => show win1_3.index t (0 : Fin 1) * 47 + 1 * (y 0).val = (y 0).val; rw [e0]; omega

/-- The second weight matrix is loaded whole at every point. -/
theorem wr_block (c : Dev nD) (t : Fin cfg1.N) :
    (iblk1 V c 4 t : Vec Ideal S256x47 .f32) = (V c main_arg10 : S256x47.Idx → EReal) := by
  obtain ⟨-, -, -, -, -, -, -, e0, e1, -⟩ := block_indices t
  funext y
  unfold iblk1
  rw [View.read_apply]
  refine congrArg (V c main_arg10 : S256x47.Idx → EReal) (funext fun a => Fin.ext ?_)
  match a with
  | ⟨0, _⟩ => show win1_4.index t (0 : Fin 2) * 256 + 1 * (y 0).val = (y 0).val; rw [e0]; omega
  | ⟨1, _⟩ => show win1_4.index t (1 : Fin 2) * 47 + 1 * (y 1).val = (y 1).val; rw [e1]; omega

/-! ## What a point writes back, the cover, the array -/

/-- The layer of the arrays as the region finds them. -/
abbrev layer (c : Dev nD) : S8192x47.Idx → EReal :=
  Cert.Dense.logSoftmaxDense (n := 8192) (d := 256) (h := 47) (V c main_v39) (V c main_v40) (V c main_arg8) (V c main_arg10) (V c main_arg9)

/-- WHAT POINT `t` WRITES BACK is block `t` of the layer of the whole arrays. -/
theorem flushed_eq (c : Dev nD) (t : Fin cfg1.N) :
    (dat1 (F := Ideal) V c).flushed 5 t = ((cfg1.win 5).blk t).view.read (Elt Ideal) (layer V c) := by
  show (cfg1.win 5).cut (grid1.coords t) ((dat1 (F := Ideal) V c).after 5 t) = _
  rw [after1_5]
  unfold out1_5
  rw [View.canon_unit_zero zero_offsets2]
  simp only [View.ld_unit_zero (S := S1024x256) zero_offsets2, View.ld_unit_zero (S := S256x47) zero_offsets2, View.ld_unit_zero (S := S47) zero_offsets1]
  obtain ⟨-, -, -, -, -, -, -, -, -, e0, e1⟩ := block_indices t
  have ht : t.val < 8 := lt_of_lt_of_eq t.isLt N_1
  refine funext fun (j : S1024x47.Idx) => ?_
  have hp : (j 0).val < 1024 := idx2_lt0 j
  obtain ⟨r, hr⟩ : ∃ r : Fin 8192, r.val = t.val * 1024 + (j 0).val := ⟨⟨t.val * 1024 + (j 0).val, by omega⟩, rfl⟩
  have hemb : ((cfg1.win 5).blk t).view.emb j = ix2 r (j 1) := funext fun a => Fin.ext (by
    match a with
    | ⟨0, _⟩ => show win1_5.index t (0 : Fin 2) * 1024 + 1 * (j 0).val = r.val; rw [e0, hr]; omega
    | ⟨1, _⟩ => show win1_5.index t (1 : Fin 2) * 47 + 1 * (j 1).val = (j 1).val; rw [e1]; omega)
  show k1_pay1 (F := Ideal) (iblk1 V c 0 t) (iblk1 V c 1 t) (iblk1 V c 2 t) (iblk1 V c 4 t) (iblk1 V c 3 t) j
      = layer V c (((cfg1.win 5).blk t).view.emb j)
  rw [hemb]
  refine (congrArg (k1_pay1 (F := Ideal) (iblk1 V c 0 t) (iblk1 V c 1 t) (iblk1 V c 2 t) (iblk1 V c 4 t) (iblk1 V c 3 t)) (eq_ix2 j)).trans ?_
  exact payload_apply_of_rows (V c main_v39) (V c main_v40) (V c main_arg8) (V c main_arg10) (V c main_arg9)
    (iblk1 V c 0 t) (iblk1 V c 1 t) (iblk1 V c 2 t) (iblk1 V c 4 t) (iblk1 V c 3 t) (j 0) (j 1) r
    (fun k => agg_block_apply V c t (j 0) k r hr) (fun k => tgt_block_apply V c t (j 0) k r hr)
    (wl_block V c t) (wr_block V c t) (bias_block V c t)

/-- An index of the result array is in point `t`'s block iff each coordinate is in the block's range on its axis. -/
theorem mem_block (t : Fin cfg1.N) (i : S8192x47.Idx) :
    i ∈ ((cfg1.win 5).blk t).view.set ↔ ∀ a : Fin 2, win1_5.index t a * S1024x47.size a ≤ (i a).val ∧ (i a).val < win1_5.index t a * S1024x47.size a + S1024x47.size a := by
  show i ∈ ((View.whole main_v41).slice (win1_5.rect t)).set ↔ _
  rw [View.set_slice_whole, Rect.mem_set_unit]
  exact Iff.rfl

/-- Every index of the result array is in the block of the point its row names: row `r` is written by point `r / 1024`. -/
theorem covered (i : S8192x47.Idx) : ∃ t : Fin cfg1.N, (cfg1.win 5).flush t = true ∧ i ∈ ((cfg1.win 5).blk t).view.set := by
  have hi0 : (i 0).val < 8192 := idx2_lt0 i
  have hi1 : (i 1).val < 47 := idx2_lt1 i
  obtain ⟨t, ht⟩ : ∃ t : Fin cfg1.N, t.val = (i 0).val / 1024 := ⟨⟨(i 0).val / 1024, lt_of_lt_of_eq (by omega) N_1.symm⟩, rfl⟩
  obtain ⟨-, -, -, -, -, -, -, -, -, e0, e1⟩ := block_indices t
  refine ⟨t, flush1_5 t, ?_⟩
  rw [mem_block]
  intro a
  match a with
  | ⟨0, _⟩ => show win1_5.index t (0 : Fin 2) * 1024 ≤ (i 0).val ∧ (i 0).val < win1_5.index t (0 : Fin 2) * 1024 + 1024; rw [e0, ht]; omega
  | ⟨1, _⟩ => show win1_5.index t (1 : Fin 2) * 47 ≤ (i 1).val ∧ (i 1).val < win1_5.index t (1 : Fin 2) * 47 + 47; rw [e1]; omega

/-- THE RESULT ARRAY after the region has run from any entry contents: the row-wise log-softmax layer of the arrays the
    region found. -/
theorem array (c : Dev nD) :
    (Cert.KernelIdeal.Gen.dat1 (F := Ideal) V c).arrAt 5 cfg1.N
      = Cert.Dense.logSoftmaxDense (n := 8192) (d := 256) (h := 47) (V c main_v39) (V c main_v40) (V c main_arg8) (V c main_arg10) (V c main_arg9) :=
  (dat1 (F := Ideal) V c).arrAt_eq_of_cover 5 (layer V c) (fun t _ => flushed_eq V c t) covered

end Cert.KernelIdeal.Layer1

end
-- ==== Proof.KernelValue.lean ====
/-
  The value the kernel program computes, over the extended reals.

  The first kernel's result array (the hidden features) is the clamped combination of the neighbour means of the
  input features and the target nodes' own features; the second kernel's result array, which is the program's result, is
  the row-wise log-softmax of the combination of the neighbour means of the hidden features and the targets' own
  hidden features.
-/
import proofs.«178286_j85203561218630_1_alg».proof.Proof.KernelStages
import proofs.«178286_j85203561218630_1_alg».proof.Proof.Layer0Array
import proofs.«178286_j85203561218630_1_alg».proof.Proof.Layer1Array

set_option maxRecDepth 16384

noncomputable section

namespace Cert.KernelIdeal.Value

open Idealize.ShloMosaic Idealize.ShloMosaic.TcCoe Idealize.SL.Sem
open Cert.KernelIdeal Cert.KernelIdeal.Gen Cert.KernelIdeal.Stages

variable (m : (ℓ : Loc nD τ sig) → Buf (Elt Ideal) ℓ) (ρ : Dev nD → PrngReg)

/-- The hidden features, as a function of the arguments. -/
abbrev hidden (c : Dev nD) : (⟨S90112x256, .f32⟩ : BufTy).Contents (Elt Ideal) :=
  Cert.Dense.reluDense (n := 90112) (d := 100) (h := 256)
    (Aggregate.meanNeighbours0 (m ((c : Thread nD τ).loc main_arg0)) (m ((c : Thread nD τ).loc main_arg1)) (m ((c : Thread nD τ).loc main_arg2)))
    (Aggregate.targets0 (m ((c : Thread nD τ).loc main_arg0)))
    (m ((c : Thread nD τ).loc main_arg5)) (m ((c : Thread nD τ).loc main_arg7)) (m ((c : Thread nD τ).loc main_arg6))

/-- What the first kernel leaves in its result array. -/
theorem hidden_value (c : Dev nD) : W2 m ρ c (Proc.devRef .tc main_v20) = hidden m c :=
  (W2_arr m ρ c 5).trans ((Layer0.array (V1 m ρ) c).trans (by
    rw [entry0_means m ρ c, entry0_targets m ρ c, entry0_arg5 m ρ c, entry0_arg6 m ρ c, entry0_arg7 m ρ c]))

/-- The program's result, as a function of the arguments. -/
abbrev result (c : Dev nD) : (⟨S8192x47, .f32⟩ : BufTy).Contents (Elt Ideal) :=
  Cert.Dense.logSoftmaxDense (n := 8192) (d := 256) (h := 47)
    (Aggregate.meanNeighbours1 (hidden m c) (m ((c : Thread nD τ).loc main_arg3)) (m ((c : Thread nD τ).loc main_arg4)))
    (Aggregate.targets1 (hidden m c))
    (m ((c : Thread nD τ).loc main_arg8)) (m ((c : Thread nD τ).loc main_arg10)) (m ((c : Thread nD τ).loc main_arg9))

/-- What the second kernel leaves in its result array, the program's result. -/
theorem result_value (c : Dev nD) : W4 m ρ c (Proc.devRef .tc main_v41) = result m c :=
  (W4_arr m ρ c 5).trans ((Layer1.array (V3 m ρ) c).trans (by
    rw [entry1_means m ρ c, entry1_targets m ρ c, entry1_arg8 m ρ c, entry1_arg9 m ρ c, entry1_arg10 m ρ c, hidden_value m ρ c]))

end Cert.KernelIdeal.Value

end
-- ==== Proof.RefLayers.lean ====
/-
  The dense parts of the reference, as its host operations compute them: a layer's combination
  `a @ wl + b + x @ wr` (the bias added before the second product), the clamp at zero of the first layer, and the
  row-wise log-softmax of the second (the row maximum taken once more against minus infinity, as the library function
  the reference calls prints it).
-/
import proofs.«178286_j85203561218630_1_alg».proof.ReferenceIdeal
import proofs.«178286_j85203561218630_1_alg».proof.Proof.Gen.ReferenceIdeal

noncomputable section

namespace Cert.ReferenceIdeal.Layers

open Idealize.ShloMosaic Cert.ReferenceIdeal Cert.ReferenceIdeal.Gen

variable {F : FTy → Type} [FloatOps F]

/-- First layer: `max (a @ wl + b + x @ wr, 0)` over 90112 rows. -/
def hostRelu (a x : (⟨S90112x100, .f32⟩ : BufTy).Contents (Elt F)) (wl : (⟨S100x256, .f32⟩ : BufTy).Contents (Elt F))
    (b : (⟨S256, .f32⟩ : BufTy).Contents (Elt F)) (wr : (⟨S100x256, .f32⟩ : BufTy).Contents (Elt F)) :
    (⟨S90112x256, .f32⟩ : BufTy).Contents (Elt F) :=
  maximumf (addf (addf (Host.dotGeneral dot_S90112x100_S100x256_S90112x256_1_0_0_1_n_n none a wl) (broadcastInDim S90112x256 ![0, 1] bcast_S1x256_S90112x256_0_1 (broadcastInDim S1x256 ![1] bcast_S256_S1x256_1 b))) (Host.dotGeneral dot_S90112x100_S100x256_S90112x256_1_0_0_1_n_n none x wr)) (broadcastInDim S90112x256 ![] bcast_S_S90112x256 (constant S_ .f32 0x00000000#32))

/-- Second layer before its log-softmax: `a @ wl + b + x @ wr` over 8192 rows. -/
def hostCombine (a x : (⟨S8192x256, .f32⟩ : BufTy).Contents (Elt F)) (wl : (⟨S256x47, .f32⟩ : BufTy).Contents (Elt F))
    (b : (⟨S47, .f32⟩ : BufTy).Contents (Elt F)) (wr : (⟨S256x47, .f32⟩ : BufTy).Contents (Elt F)) :
    (⟨S8192x47, .f32⟩ : BufTy).Contents (Elt F) :=
  addf (addf (Host.dotGeneral dot_S8192x256_S256x47_S8192x47_1_0_0_1_n_n none a wl) (broadcastInDim S8192x47 ![0, 1] bcast_S1x47_S8192x47_0_1 (broadcastInDim S1x47 ![1] bcast_S47_S1x47_1 b))) (Host.dotGeneral dot_S8192x256_S256x47_S8192x47_1_0_0_1_n_n none x wr)

/-- The row-wise log-softmax of an 8192 × 47 array. -/
def hostLogSoftmax (o : (⟨S8192x47, .f32⟩ : BufTy).Contents (Elt F)) : (⟨S8192x47, .f32⟩ : BufTy).Contents (Elt F) :=
  subf (subf o (broadcastInDim S8192x47 ![0, 1] bcast_S8192x1_S8192x47_0_1 (broadcastInDim S8192x1 ![0] bcast_S8192_S8192x1_0 (maximumf (broadcastInDim S8192 ![] bcast_S_S8192 (constant S_ .f32 0xFF800000#32)) (Host.reduce FloatOps.maximumf o (constant S_ .f32 0xFF800000#32) reducesTo_S8192x47_S8192_d1 h_S_))))) (broadcastInDim S8192x47 ![0, 1] bcast_S8192x1_S8192x47_0_1 (Host.log (broadcastInDim S8192x1 ![0] bcast_S8192_S8192x1_0 (Host.reduceAdd (Host.exp (subf o (broadcastInDim S8192x47 ![0, 1] bcast_S8192x1_S8192x47_0_1 (broadcastInDim S8192x1 ![0] bcast_S8192_S8192x1_0 (maximumf (broadcastInDim S8192 ![] bcast_S_S8192 (constant S_ .f32 0xFF800000#32)) (Host.reduce FloatOps.maximumf o (constant S_ .f32 0xFF800000#32) reducesTo_S8192x47_S8192_d1 h_S_)))))) (constant S_ .f32 0x00000000#32) reducesTo_S8192x47_S8192_d1 h_S_))))

end Cert.ReferenceIdeal.Layers

end
-- ==== Proof.RefStages.lean ====
/-
  The reference program's run, evaluated a stretch of operations at a time.

  Its 82 host operations fall into three stretches: the first 35 end with the hidden features (the first layer, clamped
  at zero), the next 32 with the second layer's combination, the last 15 are the row-wise log-softmax. The contents
  after a stretch are the fold of its operations over the contents before it, so the result is the log-softmax of the
  combination over the neighbour means of the hidden features, and each stretch is read without the one before it being
  opened again.
-/
import proofs.«178286_j85203561218630_1_alg».proof.Proof.RefRun
import proofs.«178286_j85203561218630_1_alg».proof.Proof.RefLayers
import proofs.«178286_j85203561218630_1_alg».proof.Proof.Aggregate
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.Layers

variable {F : FTy → Type} [FloatOps F]

/-- The first stretch: the neighbour means of the input features, the first layer's combination, its clamp at zero. -/
abbrev opsHidden : List (HloOp τ sig (Elt F)) :=
  [ unary main_arg0 main_v0 ((extractStridedSlice S90112x100 ![0, 0] · slices_S991232x100_S90112x100_0_0) : (⟨S991232x100, .f32⟩ : BufTy).Contents (Elt F) → (⟨S90112x100, .f32⟩ : BufTy).Contents (Elt F)),
    nullary main_c (constantI S_ 32 0#32),
    unary main_c main_v1 (broadcastInDim S901120 ![] bcast_S_S901120 : (⟨S_, .i32⟩ : BufTy).Contents (Elt F) → (⟨S901120, .i32⟩ : BufTy).Contents (Elt F)),
    binary main_arg1 main_v1 main_v2 (cmpi .slt : (⟨S901120, .i32⟩ : BufTy).Contents (Elt F) → (⟨S901120, .i32⟩ : BufTy).Contents (Elt F) → (⟨S901120, .i1⟩ : BufTy).Contents (Elt F)),
    nullary main_c_0 (constantI S_ 32 991232#32),
    unary main_c_0 main_v3 (broadcastInDim S901120 ![] bcast_S_S901120 : (⟨S_, .i32⟩ : BufTy).Contents (Elt F) → (⟨S901120, .i32⟩ : BufTy).Contents (Elt F)),
    binary main_arg1 main_v3 main_v4 (addi : (⟨S901120, .i32⟩ : BufTy).Contents (Elt F) → (⟨S901120, .i32⟩ : BufTy).Contents (Elt F) → (⟨S901120, .i32⟩ : BufTy).Contents (Elt F)),
    ternary main_v2 main_v4 main_arg1 main_v5 (select : (⟨S901120, .i1⟩ : BufTy).Contents (Elt F) → (⟨S901120, .i32⟩ : BufTy).Contents (Elt F) → (⟨S901120, .i32⟩ : BufTy).Contents (Elt F) → (⟨S901120, .i32⟩ : BufTy).Contents (Elt F)),
    unary main_v5 main_v6 (broadcastInDim S901120x1 ![0] bcast_S901120_S901120x1_0 : (⟨S901120, .i32⟩ : BufTy).Contents (Elt F) → (⟨S901120x1, .i32⟩ : BufTy).Contents (Elt F)),
    binary main_arg0 main_v6 main_v7 ((fun x i => Host.gather gather_S991232x100_S901120x1_S901120x100_1_0_n_n_0_1_1100 x i) : (⟨S991232x100, .f32⟩ : BufTy).Contents (Elt F) → (⟨S901120x1, .i32⟩ : BufTy).Contents (Elt F) → (⟨S901120x100, .f32⟩ : BufTy).Contents (Elt F)),
    nullary main_cst (constant S_ .f32 0x00000000#32),
    unary main_cst main_v8 (broadcastInDim S90112x100 ![] bcast_S_S90112x100 : (⟨S_, .f32⟩ : BufTy).Contents (Elt F) → (⟨S90112x100, .f32⟩ : BufTy).Contents (Elt F)),
    unary main_arg2 main_v9 (broadcastInDim S901120x1 ![0] bcast_S901120_S901120x1_0 : (⟨S901120, .i32⟩ : BufTy).Contents (Elt F) → (⟨S901120x1, .i32⟩ : BufTy).Contents (Elt F)),
    ternary main_v8 main_v9 main_v7 main_v10 ((fun x i u => Host.scatterAdd scatter_S90112x100_S901120x1_S901120x100_1_0_0_1 x i u) : (⟨S90112x100, .f32⟩ : BufTy).Contents (Elt F) → (⟨S901120x1, .i32⟩ : BufTy).Contents (Elt F) → (⟨S901120x100, .f32⟩ : BufTy).Contents (Elt F) → (⟨S90112x100, .f32⟩ : BufTy).Contents (Elt F)),
    nullary main_cst_1 (constant S_ .f32 0x3F800000#32),
    unary main_cst_1 main_v11 (broadcastInDim S901120 ![] bcast_S_S901120 : (⟨S_, .f32⟩ : BufTy).Contents (Elt F) → (⟨S901120, .f32⟩ : BufTy).Contents (Elt F)),
    nullary main_cst_2 (constant S_ .f32 0x00000000#32),
    unary main_cst_2 main_v12 (broadcastInDim S90112 ![] bcast_S_S90112 : (⟨S_, .f32⟩ : BufTy).Contents (Elt F) → (⟨S90112, .f32⟩ : BufTy).Contents (Elt F)),
    unary main_arg2 main_v13 (broadcastInDim S901120x1 ![0] bcast_S901120_S901120x1_0 : (⟨S901120, .i32⟩ : BufTy).Contents (Elt F) → (⟨S901120x1, .i32⟩ : BufTy).Contents (Elt F)),
    ternary main_v12 main_v13 main_v11 main_v14 ((fun x i u => Host.scatterAdd scatter_S90112_S901120x1_S901120_n_0_0_1 x i u) : (⟨S90112, .f32⟩ : BufTy).Contents (Elt F) → (⟨S901120x1, .i32⟩ : BufTy).Contents (Elt F) → (⟨S901120, .f32⟩ : BufTy).Contents (Elt F) → (⟨S90112, .f32⟩ : BufTy).Contents (Elt F)),
    nullary main_cst_3 (constant S_ .f32 0x3F800000#32),
    unary main_cst_3 main_v15 (broadcastInDim S90112 ![] bcast_S_S90112 : (⟨S_, .f32⟩ : BufTy).Contents (Elt F) → (⟨S90112, .f32⟩ : BufTy).Contents (Elt F)),
    binary main_v14 main_v15 main_v16 (maximumf : (⟨S90112, .f32⟩ : BufTy).Contents (Elt F) → (⟨S90112, .f32⟩ : BufTy).Contents (Elt F) → (⟨S90112, .f32⟩ : BufTy).Contents (Elt F)),
    unary main_v16 main_v17 (broadcastInDim S90112x1 ![0] bcast_S90112_S90112x1_0 : (⟨S90112, .f32⟩ : BufTy).Contents (Elt F) → (⟨S90112x1, .f32⟩ : BufTy).Contents (Elt F)),
    unary main_v17 main_v18 (broadcastInDim S90112x100 ![0, 1] bcast_S90112x1_S90112x100_0_1 : (⟨S90112x1, .f32⟩ : BufTy).Contents (Elt F) → (⟨S90112x100, .f32⟩ : BufTy).Contents (Elt F)),
    binary main_v10 main_v18 main_v19 (Host.divf : (⟨S90112x100, .f32⟩ : BufTy).Contents (Elt F) → (⟨S90112x100, .f32⟩ : BufTy).Contents (Elt F) → (⟨S90112x100, .f32⟩ : BufTy).Contents (Elt F)),
    binary main_v19 main_arg5 main_v20 ((fun l r => Host.dotGeneral dot_S90112x100_S100x256_S90112x256_1_0_0_1_n_n none l r) : (⟨S90112x100, .f32⟩ : BufTy).Contents (Elt F) → (⟨S100x256, .f32⟩ : BufTy).Contents (Elt F) → (⟨S90112x256, .f32⟩ : BufTy).Contents (Elt F)),
    unary main_arg6 main_v21 (broadcastInDim S1x256 ![1] bcast_S256_S1x256_1 : (⟨S256, .f32⟩ : BufTy).Contents (Elt F) → (⟨S1x256, .f32⟩ : BufTy).Contents (Elt F)),
    unary main_v21 main_v22 (broadcastInDim S90112x256 ![0, 1] bcast_S1x256_S90112x256_0_1 : (⟨S1x256, .f32⟩ : BufTy).Contents (Elt F) → (⟨S90112x256, .f32⟩ : BufTy).Contents (Elt F)),
    binary main_v20 main_v22 main_v23 (addf : (⟨S90112x256, .f32⟩ : BufTy).Contents (Elt F) → (⟨S90112x256, .f32⟩ : BufTy).Contents (Elt F) → (⟨S90112x256, .f32⟩ : BufTy).Contents (Elt F)),
    binary main_v0 main_arg7 main_v24 ((fun l r => Host.dotGeneral dot_S90112x100_S100x256_S90112x256_1_0_0_1_n_n none l r) : (⟨S90112x100, .f32⟩ : BufTy).Contents (Elt F) → (⟨S100x256, .f32⟩ : BufTy).Contents (Elt F) → (⟨S90112x256, .f32⟩ : BufTy).Contents (Elt F)),
    binary main_v23 main_v24 main_v25 (addf : (⟨S90112x256, .f32⟩ : BufTy).Contents (Elt F) → (⟨S90112x256, .f32⟩ : BufTy).Contents (Elt F) → (⟨S90112x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S90112x256, .f32⟩) main_call0_v0) (broadcastInDim S90112x256 ![] bcast_S_S90112x256),
    TRef.binary (TRef.of (T := ⟨S90112x256, .f32⟩) main_v25) (TRef.of (T := ⟨S90112x256, .f32⟩) main_call0_v0) (TRef.of (T := ⟨S90112x256, .f32⟩) main_v26) maximumf ]

/-- The second stretch: the neighbour means of the hidden features and the second layer's combination. -/
abbrev opsCombine : List (HloOp τ sig (Elt F)) :=
  [ unary main_v26 main_v27 ((extractStridedSlice S8192x256 ![0, 0] · slices_S90112x256_S8192x256_0_0) : (⟨S90112x256, .f32⟩ : BufTy).Contents (Elt F) → (⟨S8192x256, .f32⟩ : BufTy).Contents (Elt F)),
    nullary main_c_4 (constantI S_ 32 0#32),
    unary main_c_4 main_v28 (broadcastInDim S81920 ![] bcast_S_S81920 : (⟨S_, .i32⟩ : BufTy).Contents (Elt F) → (⟨S81920, .i32⟩ : BufTy).Contents (Elt F)),
    binary main_arg3 main_v28 main_v29 (cmpi .slt : (⟨S81920, .i32⟩ : BufTy).Contents (Elt F) → (⟨S81920, .i32⟩ : BufTy).Contents (Elt F) → (⟨S81920, .i1⟩ : BufTy).Contents (Elt F)),
    nullary main_c_5 (constantI S_ 32 90112#32),
    unary main_c_5 main_v30 (broadcastInDim S81920 ![] bcast_S_S81920 : (⟨S_, .i32⟩ : BufTy).Contents (Elt F) → (⟨S81920, .i32⟩ : BufTy).Contents (Elt F)),
    binary main_arg3 main_v30 main_v31 (addi : (⟨S81920, .i32⟩ : BufTy).Contents (Elt F) → (⟨S81920, .i32⟩ : BufTy).Contents (Elt F) → (⟨S81920, .i32⟩ : BufTy).Contents (Elt F)),
    ternary main_v29 main_v31 main_arg3 main_v32 (select : (⟨S81920, .i1⟩ : BufTy).Contents (Elt F) → (⟨S81920, .i32⟩ : BufTy).Contents (Elt F) → (⟨S81920, .i32⟩ : BufTy).Contents (Elt F) → (⟨S81920, .i32⟩ : BufTy).Contents (Elt F)),
    unary main_v32 main_v33 (broadcastInDim S81920x1 ![0] bcast_S81920_S81920x1_0 : (⟨S81920, .i32⟩ : BufTy).Contents (Elt F) → (⟨S81920x1, .i32⟩ : BufTy).Contents (Elt F)),
    binary main_v26 main_v33 main_v34 ((fun x i => Host.gather gather_S90112x256_S81920x1_S81920x256_1_0_n_n_0_1_1256 x i) : (⟨S90112x256, .f32⟩ : BufTy).Contents (Elt F) → (⟨S81920x1, .i32⟩ : BufTy).Contents (Elt F) → (⟨S81920x256, .f32⟩ : BufTy).Contents (Elt F)),
    nullary main_cst_6 (constant S_ .f32 0x00000000#32),
    unary main_cst_6 main_v35 (broadcastInDim S8192x256 ![] bcast_S_S8192x256 : (⟨S_, .f32⟩ : BufTy).Contents (Elt F) → (⟨S8192x256, .f32⟩ : BufTy).Contents (Elt F)),
    unary main_arg4 main_v36 (broadcastInDim S81920x1 ![0] bcast_S81920_S81920x1_0 : (⟨S81920, .i32⟩ : BufTy).Contents (Elt F) → (⟨S81920x1, .i32⟩ : BufTy).Contents (Elt F)),
    ternary main_v35 main_v36 main_v34 main_v37 ((fun x i u => Host.scatterAdd scatter_S8192x256_S81920x1_S81920x256_1_0_0_1 x i u) : (⟨S8192x256, .f32⟩ : BufTy).Contents (Elt F) → (⟨S81920x1, .i32⟩ : BufTy).Contents (Elt F) → (⟨S81920x256, .f32⟩ : BufTy).Contents (Elt F) → (⟨S8192x256, .f32⟩ : BufTy).Contents (Elt F)),
    nullary main_cst_7 (constant S_ .f32 0x3F800000#32),
    unary main_cst_7 main_v38 (broadcastInDim S81920 ![] bcast_S_S81920 : (⟨S_, .f32⟩ : BufTy).Contents (Elt F) → (⟨S81920, .f32⟩ : BufTy).Contents (Elt F)),
    nullary main_cst_8 (constant S_ .f32 0x00000000#32),
    unary main_cst_8 main_v39 (broadcastInDim S8192 ![] bcast_S_S8192 : (⟨S_, .f32⟩ : BufTy).Contents (Elt F) → (⟨S8192, .f32⟩ : BufTy).Contents (Elt F)),
    unary main_arg4 main_v40 (broadcastInDim S81920x1 ![0] bcast_S81920_S81920x1_0 : (⟨S81920, .i32⟩ : BufTy).Contents (Elt F) → (⟨S81920x1, .i32⟩ : BufTy).Contents (Elt F)),
    ternary main_v39 main_v40 main_v38 main_v41 ((fun x i u => Host.scatterAdd scatter_S8192_S81920x1_S81920_n_0_0_1 x i u) : (⟨S8192, .f32⟩ : BufTy).Contents (Elt F) → (⟨S81920x1, .i32⟩ : BufTy).Contents (Elt F) → (⟨S81920, .f32⟩ : BufTy).Contents (Elt F) → (⟨S8192, .f32⟩ : BufTy).Contents (Elt F)),
    nullary main_cst_9 (constant S_ .f32 0x3F800000#32),
    unary main_cst_9 main_v42 (broadcastInDim S8192 ![] bcast_S_S8192 : (⟨S_, .f32⟩ : BufTy).Contents (Elt F) → (⟨S8192, .f32⟩ : BufTy).Contents (Elt F)),
    binary main_v41 main_v42 main_v43 (maximumf : (⟨S8192, .f32⟩ : BufTy).Contents (Elt F) → (⟨S8192, .f32⟩ : BufTy).Contents (Elt F) → (⟨S8192, .f32⟩ : BufTy).Contents (Elt F)),
    unary main_v43 main_v44 (broadcastInDim S8192x1 ![0] bcast_S8192_S8192x1_0 : (⟨S8192, .f32⟩ : BufTy).Contents (Elt F) → (⟨S8192x1, .f32⟩ : BufTy).Contents (Elt F)),
    unary main_v44 main_v45 (broadcastInDim S8192x256 ![0, 1] bcast_S8192x1_S8192x256_0_1 : (⟨S8192x1, .f32⟩ : BufTy).Contents (Elt F) → (⟨S8192x256, .f32⟩ : BufTy).Contents (Elt F)),
    binary main_v37 main_v45 main_v46 (Host.divf : (⟨S8192x256, .f32⟩ : BufTy).Contents (Elt F) → (⟨S8192x256, .f32⟩ : BufTy).Contents (Elt F) → (⟨S8192x256, .f32⟩ : BufTy).Contents (Elt F)),
    binary main_v46 main_arg8 main_v47 ((fun l r => Host.dotGeneral dot_S8192x256_S256x47_S8192x47_1_0_0_1_n_n none l r) : (⟨S8192x256, .f32⟩ : BufTy).Contents (Elt F) → (⟨S256x47, .f32⟩ : BufTy).Contents (Elt F) → (⟨S8192x47, .f32⟩ : BufTy).Contents (Elt F)),
    unary main_arg9 main_v48 (broadcastInDim S1x47 ![1] bcast_S47_S1x47_1 : (⟨S47, .f32⟩ : BufTy).Contents (Elt F) → (⟨S1x47, .f32⟩ : BufTy).Contents (Elt F)),
    unary main_v48 main_v49 (broadcastInDim S8192x47 ![0, 1] bcast_S1x47_S8192x47_0_1 : (⟨S1x47, .f32⟩ : BufTy).Contents (Elt F) → (⟨S8192x47, .f32⟩ : BufTy).Contents (Elt F)),
    binary main_v47 main_v49 main_v50 (addf : (⟨S8192x47, .f32⟩ : BufTy).Contents (Elt F) → (⟨S8192x47, .f32⟩ : BufTy).Contents (Elt F) → (⟨S8192x47, .f32⟩ : BufTy).Contents (Elt F)),
    binary main_v27 main_arg10 main_v51 ((fun l r => Host.dotGeneral dot_S8192x256_S256x47_S8192x47_1_0_0_1_n_n none l r) : (⟨S8192x256, .f32⟩ : BufTy).Contents (Elt F) → (⟨S256x47, .f32⟩ : BufTy).Contents (Elt F) → (⟨S8192x47, .f32⟩ : BufTy).Contents (Elt F)),
    binary main_v50 main_v51 main_v52 (addf : (⟨S8192x47, .f32⟩ : BufTy).Contents (Elt F) → (⟨S8192x47, .f32⟩ : BufTy).Contents (Elt F) → (⟨S8192x47, .f32⟩ : BufTy).Contents (Elt F)) ]

/-- The third stretch: the row-wise log-softmax. -/
abbrev opsSoftmax : List (HloOp τ sig (Elt F)) :=
  [ TRef.nullary (TRef.of (T := ⟨S_, .f32⟩) main_call1_cst) (constant S_ .f32 0xFF800000#32),
    TRef.binary (TRef.of (T := ⟨S8192x47, .f32⟩) main_v52) (TRef.of (T := ⟨S_, .f32⟩) main_call1_cst) (TRef.of (T := ⟨S8192, .f32⟩) main_call1_v0) (fun x v => Host.reduce FloatOps.maximumf x v reducesTo_S8192x47_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x47, .f32⟩) main_call1_v4) (broadcastInDim S8192x47 ![0, 1] bcast_S8192x1_S8192x47_0_1),
    TRef.binary (TRef.of (T := ⟨S8192x47, .f32⟩) main_v52) (TRef.of (T := ⟨S8192x47, .f32⟩) main_call1_v4) (TRef.of (T := ⟨S8192x47, .f32⟩) main_call1_v5) subf,
    TRef.unary (TRef.of (T := ⟨S8192x47, .f32⟩) main_call1_v5) (TRef.of (T := ⟨S8192x47, .f32⟩) main_call1_v6) Host.exp,
    TRef.nullary (TRef.of (T := ⟨S_, .f32⟩) main_call1_cst_1) (constant S_ .f32 0x00000000#32),
    TRef.binary (TRef.of (T := ⟨S8192x47, .f32⟩) main_call1_v6) (TRef.of (T := ⟨S_, .f32⟩) main_call1_cst_1) (TRef.of (T := ⟨S8192, .f32⟩) main_call1_v7) (fun x v => Host.reduceAdd x v reducesTo_S8192x47_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x47, .f32⟩) main_call1_v10) (broadcastInDim S8192x47 ![0, 1] bcast_S8192x1_S8192x47_0_1),
    TRef.binary (TRef.of (T := ⟨S8192x47, .f32⟩) main_call1_v5) (TRef.of (T := ⟨S8192x47, .f32⟩) main_call1_v10) (TRef.of (T := ⟨S8192x47, .f32⟩) main_v53) subf ]

theorem ops_split : (ops : List (HloOp τ sig (Elt F))) = opsHidden ++ (opsCombine ++ opsSoftmax) := rfl

variable (m : (ℓ : Loc nD τ sig) → Buf (Elt F) ℓ)

/-- The contents after the first stretch. -/
def afterHidden (c : Dev nD) : Valuation τ sig (Elt F) := after opsHidden (launchContents m c)
/-- The contents after the second stretch. -/
def afterCombine (c : Dev nD) : Valuation τ sig (Elt F) := after opsCombine (afterHidden m c)

/-! ## After the first stretch -/

theorem hidden_value (c : Dev nD) :
    afterHidden m c (Proc.devRef .tc main_v26)
      = hostRelu (Cert.KernelIdeal.Aggregate.meanNeighbours0 (m ((c.tc : Thread nD τ).loc main_arg0)) (m ((c.tc : Thread nD τ).loc main_arg1)) (m ((c.tc : Thread nD τ).loc main_arg2)))
          (Cert.KernelIdeal.Aggregate.targets0 (m ((c.tc : Thread nD τ).loc main_arg0))) (m ((c.tc : Thread nD τ).loc main_arg5)) (m ((c.tc : Thread nD τ).loc main_arg6)) (m ((c.tc : Thread nD τ).loc main_arg7)) := by
  show after opsHidden (launchContents m c) (Proc.devRef .tc main_v26) = _
  after_results_simp <;> rfl

theorem hidden_arg3 (c : Dev nD) : afterHidden m c (Proc.devRef .tc main_arg3) = m ((c.tc : Thread nD τ).loc main_arg3) := by
  show after opsHidden (launchContents m c) (Proc.devRef .tc main_arg3) = _
  after_results_simp <;> rfl
theorem hidden_arg4 (c : Dev nD) : afterHidden m c (Proc.devRef .tc main_arg4) = m ((c.tc : Thread nD τ).loc main_arg4) := by
  show after opsHidden (launchContents m c) (Proc.devRef .tc main_arg4) = _
  after_results_simp <;> rfl
theorem hidden_arg8 (c : Dev nD) : afterHidden m c (Proc.devRef .tc main_arg8) = m ((c.tc : Thread nD τ).loc main_arg8) := by
  show after opsHidden (launchContents m c) (Proc.devRef .tc main_arg8) = _
  after_results_simp <;> rfl
theorem hidden_arg9 (c : Dev nD) : afterHidden m c (Proc.devRef .tc main_arg9) = m ((c.tc : Thread nD τ).loc main_arg9) := by
  show after opsHidden (launchContents m c) (Proc.devRef .tc main_arg9) = _
  after_results_simp <;> rfl
theorem hidden_arg10 (c : Dev nD) : afterHidden m c (Proc.devRef .tc main_arg10) = m ((c.tc : Thread nD τ).loc main_arg10) := by
  show after opsHidden (launchContents m c) (Proc.devRef .tc main_arg10) = _
  after_results_simp <;> rfl

/-! ## After the second stretch -/

theorem combine_value (c : Dev nD) :
    afterCombine m c (Proc.devRef .tc main_v52)
      = hostCombine (Cert.KernelIdeal.Aggregate.meanNeighbours1 (afterHidden m c (Proc.devRef .tc main_v26)) (m ((c.tc : Thread nD τ).loc main_arg3)) (m ((c.tc : Thread nD τ).loc main_arg4)))
          (Cert.KernelIdeal.Aggregate.targets1 (afterHidden m c (Proc.devRef .tc main_v26))) (m ((c.tc : Thread nD τ).loc main_arg8)) (m ((c.tc : Thread nD τ).loc main_arg9)) (m ((c.tc : Thread nD τ).loc main_arg10)) := by
  show after opsCombine (afterHidden m c) (Proc.devRef .tc main_v52) = _
  after_results_simp
  rw [hidden_arg3 m c, hidden_arg4 m c, hidden_arg8 m c, hidden_arg9 m c, hidden_arg10 m c]
  rfl

/-! ## After the third stretch: the result -/

theorem softmax_value (c : Dev nD) :
    after opsSoftmax (afterCombine m c) (Proc.devRef .tc main_v53) = hostLogSoftmax (afterCombine m c (Proc.devRef .tc main_v52)) := by
  after_results_simp <;> (try simp only [TRef.ofBuf, TRef.toBuf, cast_eq]) <;> rfl

/-- THE REFERENCE'S RESULT: the fold of all 82 operations at the result buffer, as the log-softmax of the second
    layer's combination over the hidden features' neighbour means. -/
theorem result_value (c : Dev nD) :
    after ops (launchContents m c) (Proc.devRef .tc main_v53)
      = hostLogSoftmax (hostCombine
          (Cert.KernelIdeal.Aggregate.meanNeighbours1
            (hostRelu (Cert.KernelIdeal.Aggregate.meanNeighbours0 (m ((c.tc : Thread nD τ).loc main_arg0)) (m ((c.tc : Thread nD τ).loc main_arg1)) (m ((c.tc : Thread nD τ).loc main_arg2))) (Cert.KernelIdeal.Aggregate.targets0 (m ((c.tc : Thread nD τ).loc main_arg0))) (m ((c.tc : Thread nD τ).loc main_arg5)) (m ((c.tc : Thread nD τ).loc main_arg6)) (m ((c.tc : Thread nD τ).loc main_arg7)))
            (m ((c.tc : Thread nD τ).loc main_arg3)) (m ((c.tc : Thread nD τ).loc main_arg4)))
          (Cert.KernelIdeal.Aggregate.targets1
            (hostRelu (Cert.KernelIdeal.Aggregate.meanNeighbours0 (m ((c.tc : Thread nD τ).loc main_arg0)) (m ((c.tc : Thread nD τ).loc main_arg1)) (m ((c.tc : Thread nD τ).loc main_arg2))) (Cert.KernelIdeal.Aggregate.targets0 (m ((c.tc : Thread nD τ).loc main_arg0))) (m ((c.tc : Thread nD τ).loc main_arg5)) (m ((c.tc : Thread nD τ).loc main_arg6)) (m ((c.tc : Thread nD τ).loc main_arg7))))
          (m ((c.tc : Thread nD τ).loc main_arg8)) (m ((c.tc : Thread nD τ).loc main_arg9)) (m ((c.tc : Thread nD τ).loc main_arg10))) := by
  rw [ops_split, StableHlo.after_append, StableHlo.after_append]
  show after opsSoftmax (afterCombine m c) (Proc.devRef .tc main_v53) = _
  rw [softmax_value m c, combine_value m c, hidden_value m c]

end Cert.ReferenceIdeal.Stages

end
-- ==== Proof.RefLayersValue.lean ====
/-
  The reference's dense parts, read at an index over the extended reals: they are the layers of the specification.

  The reference computes a layer's combination as `a @ wl + b + x @ wr`, the bias added before the second product; the
  specification adds it last (`Cert.Dense.combine_eq_bias_first` is that law of addition). Here each host operation is
  read at an index: a product as the sum over the contracted coordinate (four lemmas on the operands' coordinates per
  product, then `product0_apply`, `product1_apply`), the bias as a row repeated down the rows, a constant repeated
  everywhere, a per-row value kept as a column and repeated along the columns, the row maximum as a fold of `max` from
  minus infinity (taking the maximum with minus infinity once more changes nothing), the row sum from zero. So the
  first layer is `Cert.Dense.reluDense` (`hostRelu_eq`) and the second `Cert.Dense.logSoftmaxDense`
  (`hostLogSoftmax_combine_eq`).
-/
import proofs.«178286_j85203561218630_1_alg».proof.Proof.RefLayers
import proofs.«178286_j85203561218630_1_alg».proof.Proof.DenseLayers
import Idealize.ShloMosaic.Lib.Pipeline.Value
import Idealize.ShloMosaic.Lib.ValueIdx
import Idealize.ShloMosaic.PureOps.Ideal.Laws
import Idealize.ShloMosaic.PureOps.Reduce
import Mathlib.Data.Finset.Fold

noncomputable section

namespace Cert.ReferenceIdeal.Layers

open Idealize.ShloMosaic Idealize.ShloMosaic.ValueIdx Cert.ReferenceIdeal Cert.ReferenceIdeal.Gen

/-! ## Broadcasts read at an index -/

section Broadcasts
variable {α : Type}

/-- A scalar repeated over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 (fun a => a.elim0)

/-- A vector `[b]` laid along axis 1 of `[1, b]` reads, at `(u, c)`, its entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- One row `[1, b]` repeated down `a` rows reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` kept as a column `[a, 1]` reads, at `(p, u)`, its entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- One column `[a, 1]` repeated along `b` columns reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Broadcasts

/-! ## The first layer's product -/

theorem lhs0_row (i : S90112x256.Idx) (t : dot_S90112x100_S100x256_S90112x256_1_0_0_1_n_n.contr.Idx) :
    (dot_S90112x100_S100x256_S90112x256_1_0_0_1_n_n.lhsIdx i t 0).val = (i 0).val := by
  unfold DotDims.lhsIdx
  rw [dif_neg (show ¬(0 : Fin S90112x100.rank) ∈ dot_S90112x100_S100x256_S90112x256_1_0_0_1_n_n.lhsBatch by decide), dif_pos (show (0 : Fin S90112x100.rank) ∈ dot_S90112x100_S100x256_S90112x256_1_0_0_1_n_n.lhsNonContracting by decide)]
  rfl
theorem lhs0_contr (i : S90112x256.Idx) (t : dot_S90112x100_S100x256_S90112x256_1_0_0_1_n_n.contr.Idx) :
    (dot_S90112x100_S100x256_S90112x256_1_0_0_1_n_n.lhsIdx i t 1).val = (t ⟨0, by decide⟩).val :=
  dot_S90112x100_S100x256_S90112x256_1_0_0_1_n_n.lhsIdx_val_of_single rfl i t
theorem rhs0_contr (i : S90112x256.Idx) (t : dot_S90112x100_S100x256_S90112x256_1_0_0_1_n_n.contr.Idx) :
    (dot_S90112x100_S100x256_S90112x256_1_0_0_1_n_n.rhsIdx i t 0).val = (t ⟨0, by decide⟩).val :=
  dot_S90112x100_S100x256_S90112x256_1_0_0_1_n_n.rhsIdx_val_of_single rfl i t
theorem rhs0_col (i : S90112x256.Idx) (t : dot_S90112x100_S100x256_S90112x256_1_0_0_1_n_n.contr.Idx) :
    (dot_S90112x100_S100x256_S90112x256_1_0_0_1_n_n.rhsIdx i t 1).val = (i 1).val := by
  unfold DotDims.rhsIdx
  rw [dif_neg (show ¬(1 : Fin S100x256.rank) ∈ dot_S90112x100_S100x256_S90112x256_1_0_0_1_n_n.rhsBatch by decide), dif_pos (show (1 : Fin S100x256.rank) ∈ dot_S90112x100_S100x256_S90112x256_1_0_0_1_n_n.rhsNonContracting by decide)]
  rfl

/-- The first layer's product at `(p, q)`: row `p` against column `q`. -/
theorem product0_apply (l : FVec Ideal S90112x100 .f32) (r : FVec Ideal S100x256 .f32) (p : Fin 90112) (q : Fin 256) :
    Host.dotGeneral dot_S90112x100_S100x256_S90112x256_1_0_0_1_n_n none l r (ix2 p q) = ∑ k : Fin 100, l (ix2 p k) * r (ix2 k q) := by
  simp only [Host.dotGeneral]
  rw [Ideal.dotGeneral_apply, ← Equiv.sum_comp (contrEquiv1 dot_S90112x100_S100x256_S90112x256_1_0_0_1_n_n 100 rfl rfl).symm]
  refine Finset.sum_congr rfl fun k _ => ?_
  have hk := contrEquiv1_symm_val dot_S90112x100_S100x256_S90112x256_1_0_0_1_n_n 100 rfl rfl k
  have el : dot_S90112x100_S100x256_S90112x256_1_0_0_1_n_n.lhsIdx (ix2 p q) ((contrEquiv1 dot_S90112x100_S100x256_S90112x256_1_0_0_1_n_n 100 rfl rfl).symm k) = ix2 p k := funext fun a => Fin.ext (by
    match a with
    | ⟨0, _⟩ => exact lhs0_row _ _
    | ⟨1, _⟩ => exact (lhs0_contr _ _).trans hk)
  have er : dot_S90112x100_S100x256_S90112x256_1_0_0_1_n_n.rhsIdx (ix2 p q) ((contrEquiv1 dot_S90112x100_S100x256_S90112x256_1_0_0_1_n_n 100 rfl rfl).symm k) = ix2 k q := funext fun a => Fin.ext (by
    match a with
    | ⟨0, _⟩ => exact (rhs0_contr _ _).trans hk
    | ⟨1, _⟩ => exact rhs0_col _ _)
  rw [el, er]

/-- THE FIRST LAYER of the reference is the specification's. -/
theorem hostRelu_eq (a x : (⟨S90112x100, .f32⟩ : BufTy).Contents (Elt Ideal)) (wl : (⟨S100x256, .f32⟩ : BufTy).Contents (Elt Ideal))
    (b : (⟨S256, .f32⟩ : BufTy).Contents (Elt Ideal)) (wr : (⟨S100x256, .f32⟩ : BufTy).Contents (Elt Ideal)) :
    hostRelu (F := Ideal) a x wl b wr = Cert.Dense.reluDense (n := 90112) (d := 100) (h := 256) a x wl wr b := by
  funext i
  obtain ⟨p, q, rfl⟩ : ∃ (p : Fin 90112) (q : Fin 256), i = ix2 p q := ⟨i 0, i 1, eq_ix2 i⟩
  unfold hostRelu
  rw [maximumf_apply, addf_apply, addf_apply, product0_apply, product0_apply, broadcastInDim_1b_ab_apply, broadcastInDim_b_1b_apply,
    broadcastInDim_scalar_apply, constant_apply]
  show max ((∑ k : Fin 100, a (ix2 p k) * wl (ix2 k q) + b (ix1 q)) + ∑ k : Fin 100, x (ix2 p k) * wr (ix2 k q)) (Ideal.ofBits .f32 0x00000000#32)
    = max (Cert.Dense.combine (n := 90112) (d := 100) (h := 256) a x wl wr b p q) (Ideal.ofBits .f32 0x00000000#32)
  rw [Cert.Dense.combine_eq_bias_first]

/-! ## The second layer's product -/

theorem lhs1_row (i : S8192x47.Idx) (t : dot_S8192x256_S256x47_S8192x47_1_0_0_1_n_n.contr.Idx) :
    (dot_S8192x256_S256x47_S8192x47_1_0_0_1_n_n.lhsIdx i t 0).val = (i 0).val := by
  unfold DotDims.lhsIdx
  rw [dif_neg (show ¬(0 : Fin S8192x256.rank) ∈ dot_S8192x256_S256x47_S8192x47_1_0_0_1_n_n.lhsBatch by decide), dif_pos (show (0 : Fin S8192x256.rank) ∈ dot_S8192x256_S256x47_S8192x47_1_0_0_1_n_n.lhsNonContracting by decide)]
  rfl
theorem lhs1_contr (i : S8192x47.Idx) (t : dot_S8192x256_S256x47_S8192x47_1_0_0_1_n_n.contr.Idx) :
    (dot_S8192x256_S256x47_S8192x47_1_0_0_1_n_n.lhsIdx i t 1).val = (t ⟨0, by decide⟩).val :=
  dot_S8192x256_S256x47_S8192x47_1_0_0_1_n_n.lhsIdx_val_of_single rfl i t
theorem rhs1_contr (i : S8192x47.Idx) (t : dot_S8192x256_S256x47_S8192x47_1_0_0_1_n_n.contr.Idx) :
    (dot_S8192x256_S256x47_S8192x47_1_0_0_1_n_n.rhsIdx i t 0).val = (t ⟨0, by decide⟩).val :=
  dot_S8192x256_S256x47_S8192x47_1_0_0_1_n_n.rhsIdx_val_of_single rfl i t
theorem rhs1_col (i : S8192x47.Idx) (t : dot_S8192x256_S256x47_S8192x47_1_0_0_1_n_n.contr.Idx) :
    (dot_S8192x256_S256x47_S8192x47_1_0_0_1_n_n.rhsIdx i t 1).val = (i 1).val := by
  unfold DotDims.rhsIdx
  rw [dif_neg (show ¬(1 : Fin S256x47.rank) ∈ dot_S8192x256_S256x47_S8192x47_1_0_0_1_n_n.rhsBatch by decide), dif_pos (show (1 : Fin S256x47.rank) ∈ dot_S8192x256_S256x47_S8192x47_1_0_0_1_n_n.rhsNonContracting by decide)]
  rfl

/-- The second layer's product at `(p, q)`: row `p` against column `q`. -/
theorem product1_apply (l : FVec Ideal S8192x256 .f32) (r : FVec Ideal S256x47 .f32) (p : Fin 8192) (q : Fin 47) :
    Host.dotGeneral dot_S8192x256_S256x47_S8192x47_1_0_0_1_n_n none l r (ix2 p q) = ∑ k : Fin 256, l (ix2 p k) * r (ix2 k q) := by
  simp only [Host.dotGeneral]
  rw [Ideal.dotGeneral_apply, ← Equiv.sum_comp (contrEquiv1 dot_S8192x256_S256x47_S8192x47_1_0_0_1_n_n 256 rfl rfl).symm]
  refine Finset.sum_congr rfl fun k _ => ?_
  have hk := contrEquiv1_symm_val dot_S8192x256_S256x47_S8192x47_1_0_0_1_n_n 256 rfl rfl k
  have el : dot_S8192x256_S256x47_S8192x47_1_0_0_1_n_n.lhsIdx (ix2 p q) ((contrEquiv1 dot_S8192x256_S256x47_S8192x47_1_0_0_1_n_n 256 rfl rfl).symm k) = ix2 p k := funext fun a => Fin.ext (by
    match a with
    | ⟨0, _⟩ => exact lhs1_row _ _
    | ⟨1, _⟩ => exact (lhs1_contr _ _).trans hk)
  have er : dot_S8192x256_S256x47_S8192x47_1_0_0_1_n_n.rhsIdx (ix2 p q) ((contrEquiv1 dot_S8192x256_S256x47_S8192x47_1_0_0_1_n_n 256 rfl rfl).symm k) = ix2 k q := funext fun a => Fin.ext (by
    match a with
    | ⟨0, _⟩ => exact (rhs1_contr _ _).trans hk
    | ⟨1, _⟩ => exact rhs1_col _ _)
  rw [el, er]

/-- The second layer before its log-softmax is the specification's combination. -/
theorem hostCombine_apply (a x : (⟨S8192x256, .f32⟩ : BufTy).Contents (Elt Ideal)) (wl : (⟨S256x47, .f32⟩ : BufTy).Contents (Elt Ideal))
    (b : (⟨S47, .f32⟩ : BufTy).Contents (Elt Ideal)) (wr : (⟨S256x47, .f32⟩ : BufTy).Contents (Elt Ideal)) (p : Fin 8192) (q : Fin 47) :
    hostCombine (F := Ideal) a x wl b wr (ix2 p q) = Cert.Dense.combine (n := 8192) (d := 256) (h := 47) a x wl wr b p q := by
  unfold hostCombine
  rw [addf_apply, addf_apply, product1_apply, product1_apply, broadcastInDim_1b_ab_apply, broadcastInDim_b_1b_apply]
  exact Cert.Dense.combine_eq_bias_first a x wl wr b p q

/-! ## The row maximum and the row sum, as the host takes them -/

/-- Dropping the column axis of an `8192 × 47` array leaves its rows. -/
theorem reduces_row : S8192x47.Reduces [1] S8192 := by decide

/-- The reduced index `p` with the column `k` put back is `(p, k)`. -/
theorem lift_row (p : Fin 8192) (k : Fin 47) : reduces_row.lift (ix1 p) k = ix2 p k := by
  funext a
  match a with
  | ⟨0, _⟩ => rfl
  | ⟨1, _⟩ => rfl

/-- The host's exponential and logarithm at an index are the extended reals'. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The row maxima as the reference takes them: the reduction from minus infinity, and the maximum with minus infinity
    once more. -/
def hostRowMax (o : FVec Ideal S8192x47 .f32) : FVec Ideal S8192 .f32 :=
  maximumf (broadcastInDim S8192 ![] bcast_S_S8192 (constant S_ .f32 0xFF800000#32)) (Host.reduce FloatOps.maximumf o (constant S_ .f32 0xFF800000#32) reducesTo_S8192x47_S8192_d1 h_S_)

/-- It is the row's maximum folded from minus infinity: the fold already starts there, so the extra maximum is absorbed. -/
theorem hostRowMax_apply (o : FVec Ideal S8192x47 .f32) (p : Fin 8192) :
    hostRowMax o (ix1 p) = Cert.Dense.rowMax (fun c : Fin 47 => o (ix2 p c)) := by
  unfold hostRowMax
  rw [maximumf_apply, broadcastInDim_scalar_apply, constant_apply,
    Host.reduce_eq_fold_single FloatOps.maximumf o _ reducesTo_S8192x47_S8192_d1 reduces_row h_S_]
  unfold Cert.Dense.rowMax
  have e : (o ∘ reduces_row.lift (ix1 p)) = fun c : Fin 47 => o (ix2 p c) := funext fun k => congrArg o (lift_row p k)
  show max (Ideal.ofBits .f32 0xFF800000#32) (Finset.fold max (Ideal.ofBits .f32 0xFF800000#32) (o ∘ reduces_row.lift (ix1 p)) (Finset.univ : Finset (Fin 47)))
    = Finset.fold max (Ideal.ofBits .f32 0xFF800000#32) (fun c : Fin 47 => o (ix2 p c)) (Finset.univ : Finset (Fin 47))
  rw [e]
  exact max_eq_right ((Finset.le_fold_max _).mpr (Or.inl le_rfl))

/-- The row sum from zero. -/
theorem hostRowSum_apply (e : FVec Ideal S8192x47 .f32) (p : Fin 8192) :
    Host.reduceAdd e (constant (F := Ideal) S_ .f32 0x00000000#32) reducesTo_S8192x47_S8192_d1 h_S_ (ix1 p) = ∑ c : Fin 47, e (ix2 p c) := by
  unfold Host.reduceAdd
  rw [Ideal.hostReduceAdd_def, Ideal.hostReduceAdd_single reducesTo_S8192x47_S8192_d1 reduces_row]
  show Ideal.ofBits .f32 0x00000000#32 + _ = _
  rw [Ideal.ofBits_zero_f32, zero_add]
  exact Finset.sum_congr rfl fun k _ => congrArg e (lift_row p k)

/-! ## The second layer -/

/-- An array with each row shifted by its maximum, as the reference computes it. -/
def hostShifted (o : FVec Ideal S8192x47 .f32) : FVec Ideal S8192x47 .f32 :=
  subf o (broadcastInDim S8192x47 ![0, 1] bcast_S8192x1_S8192x47_0_1 (broadcastInDim S8192x1 ![0] bcast_S8192_S8192x1_0 (hostRowMax o)))

/-- The reference's log-softmax is the shifted array minus, row by row, the logarithm of the sum of its exponentials. -/
theorem hostLogSoftmax_eq (o : FVec Ideal S8192x47 .f32) :
    hostLogSoftmax (F := Ideal) o = subf (hostShifted o) (broadcastInDim S8192x47 ![0, 1] bcast_S8192x1_S8192x47_0_1 (Host.log (broadcastInDim S8192x1 ![0] bcast_S8192_S8192x1_0 (Host.reduceAdd (Host.exp (hostShifted o)) (constant S_ .f32 0x00000000#32) reducesTo_S8192x47_S8192_d1 h_S_)))) := rfl

theorem hostShifted_apply (o : FVec Ideal S8192x47 .f32) (p : Fin 8192) (q : Fin 47) :
    hostShifted o (ix2 p q) = o (ix2 p q) - Cert.Dense.rowMax (fun c : Fin 47 => o (ix2 p c)) := by
  unfold hostShifted
  rw [subf_apply, broadcastInDim_a1_ab_apply, broadcastInDim_a_a1_apply, hostRowMax_apply]

/-- The reference's row-wise log-softmax at an entry. -/
theorem hostLogSoftmax_apply (o : FVec Ideal S8192x47 .f32) (p : Fin 8192) (q : Fin 47) :
    hostLogSoftmax (F := Ideal) o (ix2 p q)
      = (o (ix2 p q) - Cert.Dense.rowMax (fun c : Fin 47 => o (ix2 p c)))
        - Ideal.log (∑ c : Fin 47, Ideal.exp (o (ix2 p c) - Cert.Dense.rowMax (fun c' : Fin 47 => o (ix2 p c')))) := by
  rw [hostLogSoftmax_eq, subf_apply, hostShifted_apply, broadcastInDim_a1_ab_apply, hostLog_apply, broadcastInDim_a_a1_apply, hostRowSum_apply]
  refine congrArg (fun s => _ - Ideal.log s) (Finset.sum_congr rfl fun c _ => ?_)
  rw [hostExp_apply, hostShifted_apply]

/-- THE SECOND LAYER of the reference is the specification's. -/
theorem hostLogSoftmax_combine_eq (a x : (⟨S8192x256, .f32⟩ : BufTy).Contents (Elt Ideal)) (wl : (⟨S256x47, .f32⟩ : BufTy).Contents (Elt Ideal))
    (b : (⟨S47, .f32⟩ : BufTy).Contents (Elt Ideal)) (wr : (⟨S256x47, .f32⟩ : BufTy).Contents (Elt Ideal)) :
    hostLogSoftmax (F := Ideal) (hostCombine a x wl b wr) = Cert.Dense.logSoftmaxDense (n := 8192) (d := 256) (h := 47) a x wl wr b := by
  funext i
  obtain ⟨p, q, rfl⟩ : ∃ (p : Fin 8192) (q : Fin 47), i = ix2 p q := ⟨i 0, i 1, eq_ix2 i⟩
  rw [hostLogSoftmax_apply]
  unfold Cert.Dense.logSoftmaxDense
  simp only [hostCombine_apply]

end Cert.ReferenceIdeal.Layers

end
-- ==== Proof.lean ====
/-
  A two-layer neighbour-mean graph convolution, computed by two kernels among host operations, equals its
  reference over the extended reals.

  Both programs form, per target node, the mean of its incoming neighbours' features (a gather, a scatter-add and a
  division by the in-degree, at least one) with the same host operations. A layer then combines the neighbour means `a`
  and the targets' own features `x`: the kernels compute `(a · wl + x · wr) + b` a block of 1024 rows at a time, the
  reference `(a · wl + b) + x · wr` on the whole arrays. Addition of extended reals is commutative and associative, a
  change of float format is the identity, and a matrix product into a zero accumulator is the plain sum of products,
  so the two agree entry by entry with nothing assumed finite; a row of the result reads one row of `a` and `x` only,
  so the blocks tile the whole-array function. The first layer clamps at zero on both sides; the second takes a
  row-wise log-softmax, where the reference's additional maximum against minus infinity changes nothing.

  The kernel program's run names its result array at the last boundary's contents; those are read back, region by
  region and host stretch by host stretch, as the second layer over the neighbour means of the first layer's result.
  The reference's 82 host operations are read in three stretches to the same function of the arguments.
-/
import proofs.«178286_j85203561218630_1_alg».proof.Defs
import proofs.«178286_j85203561218630_1_alg».proof.Proof.Gen.Kernel
import proofs.«178286_j85203561218630_1_alg».proof.Proof.Gen.Kernel.Skeleton
import proofs.«178286_j85203561218630_1_alg».proof.Proof.Gen.Kernel.Launch
import proofs.«178286_j85203561218630_1_alg».proof.Proof.Gen.Kernel.Points
import proofs.«178286_j85203561218630_1_alg».proof.Proof.Gen.Kernel.Frame
import proofs.«178286_j85203561218630_1_alg».proof.Proof.Gen.KernelIdeal
import proofs.«178286_j85203561218630_1_alg».proof.Proof.Gen.KernelIdeal.Skeleton
import proofs.«178286_j85203561218630_1_alg».proof.Proof.Gen.KernelIdeal.Launch
import proofs.«178286_j85203561218630_1_alg».proof.Proof.Gen.KernelIdeal.Points
import proofs.«178286_j85203561218630_1_alg».proof.Proof.Gen.KernelIdeal.Frame
import proofs.«178286_j85203561218630_1_alg».proof.Proof.Gen.ReferenceIdeal
import proofs.«178286_j85203561218630_1_alg».proof.Proof.Gen.Pre_finite_inputs
import proofs.«178286_j85203561218630_1_alg».proof.Proof.KernelRun
import proofs.«178286_j85203561218630_1_alg».proof.Proof.KernelValue
import proofs.«178286_j85203561218630_1_alg».proof.Proof.RefStages
import proofs.«178286_j85203561218630_1_alg».proof.Proof.RefLayersValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both idealized programs end with the row-wise log-softmax layer over the neighbour means of the clamped first
    layer: the kernel program by its two regions' blocks tiling the two layers, the reference by its three stretches
    of host operations and the two layers' laws. -/
theorem algebraic : Cert.algebraic_KernelIdeal_ReferenceIdeal := by
  intro m ρ m' ρ' _ hagree
  refine ⟨fun c => Cert.KernelIdeal.Value.result m c, ?_, ?_⟩
  · exact (θ_run Cert.KernelIdeal.defs _ _).mono
      (fun r h c => ⟨(h c).1.trans (Cert.KernelIdeal.Value.result_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8, h9, h10⟩ := hagree c
    rw [Cert.ReferenceIdeal.Stages.result_value m' c, h0, h1, h2, h3, h4, h5, h6, h7, h8, h9, h10,
      Cert.ReferenceIdeal.Layers.hostRelu_eq, Cert.ReferenceIdeal.Layers.hostLogSoftmax_combine_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
